-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128 .f32) (main_arg5 : FVec F S128x32 .f32) (main_arg6 : FVec F S128x32 .f32) (main_arg7 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128x32 .f32) (main_arg6 : FVec F S128x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x128 : Shape := ⟨2, ![1, 128]⟩
abbrev S1x32 : Shape := ⟨2, ![1, 32]⟩
abbrev S10000x32 : Shape := ⟨2, ![10000, 32]⟩
abbrev S400x10000 : Shape := ⟨2, ![400, 10000]⟩
abbrev S400x32 : Shape := ⟨2, ![400, 32]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S128x32, .f32⟩
  | .hbm, ⟨7, _⟩ => ⟨S32, .f32⟩
  | .hbm, ⟨8, _⟩ => ⟨S1x128, .f32⟩
  | .hbm, ⟨9, _⟩ => ⟨S1x32, .f32⟩
  | .hbm, ⟨10, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S128x32, .f32⟩
  | .local _ .vmem, ⟨7, _⟩ => ⟨S128x32, .f32⟩
  | .local _ .vmem, ⟨8, _⟩ => ⟨S1x32, .f32⟩
  | .local _ .vmem, ⟨9, _⟩ => ⟨S400x32, .f32⟩
  | .local _ .vmem, ⟨10, _⟩ => ⟨S400x32, .f32⟩
  | .local _ .vmem, ⟨11, _⟩ => ⟨S10000x32, .f32⟩
  | .local _ .vmem, ⟨12, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c400_i32 : BitVec 32 := 400#32
  let v0 : BitVec 32 := Scalar.muli arg1 c400_i32
  let v10 : Index := Scalar.indexCast v0
  let c0_5 : Index := 0#32
  ![v10.toNat, 0]
def k0_off2 (i : grid0.Coords) : Fin 2 → Nat :=
  let arg1 : BitVec 32 := BitVec.ofNat 32 (i 1).val
  let c400_i32 : BitVec 32 := 400#32
  let v0 : BitVec 32 := Scalar.muli arg1 c400_i32
  let v25 : Index := Scalar.indexCast v0
  let c0_18 : Index := 0#32
  ![v25.toNat, 0]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off3 (i : grid0.Coords) : Fin 2 → Nat :=
  let arg1 : BitVec 32 := BitVec.ofNat 32 (i 1).val
  let c400_i32 : BitVec 32 := 400#32
  let v0 : BitVec 32 := Scalar.muli arg1 c400_i32
  let v7 : Index := Scalar.indexCast v0
  let c0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S128_S1x128 : S128.ShapeCasts S1x128
  shapeCasts_S32_S1x32 : S32.ShapeCasts S1x32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x32_S128x32_0_0 : ∀ a, (![0, 0] : Fin 2 → Nat) a + S128x32.size a ≤ S128x32.size a
  h_S128x32 : 0 < S128x32.numel
  h_S400x32 : 0 < S400x32.numel
  shapeCasts_S400x32_S400x32 : S400x32.ShapeCasts S400x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S10000x32_S10000x32_0_0 : ∀ a, (![0, 0] : Fin 2 → Nat) a + S10000x32.size a ≤ S10000x32.size a
  h_S10000x32 : 0 < S10000x32.numel
  reduces_S400x32_S400 : S400x32.Reduces [1] S400
  shapeCasts_S400_S400x1 : S400.ShapeCasts S400x1
  broadcasts_S400x1_S400x32 : S400x1.Broadcasts S400x32
  inb_S400x32_S400x32_0_0 : ∀ a, (![0, 0] : Fin 2 → Nat) a + S400x32.size a ≤ S400x32.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x32_S400x32_1_0_0_1_n_n_wf : DotDims.WF S400x128 S128x32 S400x32 [1] [0] [0] [1] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off2_inb : ∀ i : grid0.Coords, ∀ (k0_h1 : k0_cond1 i = 1#1), ∀ a, (k0_off2 i) a + S400x32.size a ≤ S10000x32.size a
  k0_off3_inb : ∀ i : grid0.Coords, ∀ (k0_h2 : k0_cond2 i = 1#1), ∀ a, (k0_off3 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x32.size a ≤ S10000x32.size a
  hwx0_8 : ∀ i : grid0.Coords, EltTy.bits .f32 = 32 ∨ (Rect.block (s := S10000x32) S400x32.size (cc0_transform_8 i) (hinb0_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x128 : Shape := ⟨2, ![1, 128]⟩
abbrev S_ : Shape := ⟨0, ![]⟩
abbrev S10000x32 : Shape := ⟨2, ![10000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S128x32, .f32⟩
  | .hbm, ⟨7, _⟩ => ⟨S32, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x32, .f32⟩
  | .hbm, ⟨19, _⟩ => ⟨S10000x128, .f32⟩
  | .hbm, ⟨20, _⟩ => ⟨S10000x32, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x32, .f32⟩
  | .hbm, ⟨32, _⟩ => ⟨S10000x32, .f32⟩
  | .hbm, ⟨33, _⟩ => ⟨S10000x32, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x32, .f32⟩
  | .hbm, ⟨39, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S10000_d1 : S10000x32.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

class Facts : Prop extends Facts₀ where

variable [Facts]
-- ==== Proof.KRuns.lean ====
/-
  What the kernel body's two runs are stated over, for any float family: the two branch conditions of the body decided
  over the grid (the first 25 points compute the hidden layer and fill the two scratch arrays, the last 25 read them
  back), where the output window is idle and when it is written back, the offsets of the row slabs in closed form, the
  staging memrefs the pipeline passes, and the two elementary re-addressings the runs speak in: rows `[o, o + 400)` of a
  `[10000, 32]` array overwritten by a `[400, 32]` slab (`setRows`), and the slab of rows a load reads.
-/
import proofs.«140956_g31370441130263_cont_sun_m_318_17_alg».proof.Proof.Gen.Kernel.Frame
import proofs.«140956_g31370441130263_cont_sun_m_318_17_alg».proof.Proof.Gen.Kernel.Skeleton
import Idealize.ShloMosaic.Lib.WritesUnit
import Idealize.ShloMosaic.Lib.Pipeline.Value
import Idealize.ShloMosaic.Lib.Layout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases -/

/-- The first branch of the body is taken: the point is in phase 0. -/
abbrev cond0_0 (i : grid0.Coords) : Prop := k0_cond1 i = 1#1
/-- The second branch of the body is taken: the point is in phase 1. -/
abbrev cond0_1 (i : grid0.Coords) : Prop := k0_cond2 i = 1#1

/-- Phase 0 is the first 25 points. -/
theorem hcond0_0 : ∀ t : Fin cfg0.N, cond0_0 (grid0.coords t) ↔ t.val < 25 :=
  (by decide +kernel : ∀ t : Fin grid0.N, cond0_0 (grid0.coords t) ↔ t.val < 25)
/-- Phase 1 is the last 25 points. -/
theorem hcond0_1 : ∀ t : Fin cfg0.N, cond0_1 (grid0.coords t) ↔ 25 ≤ t.val :=
  (by decide +kernel : ∀ t : Fin grid0.N, cond0_1 (grid0.coords t) ↔ 25 ≤ t.val)

/-- The slab of rows a point works on starts at row `400 · (t mod 25)`. -/
theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])
theorem off3_eq : ∀ t : Fin cfg0.N, k0_off3 (grid0.coords t) = ![400 * (t.val % 25), 0] :=
  (by decide +kernel : ∀ t : Fin grid0.N, k0_off3 (grid0.coords t) = ![400 * (t.val % 25), 0])

/-! ## Where the windows are idle, and when the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- The output window is idle exactly in phase 0 (the body stores into it only in phase 1), -/
theorem idle0_8 : ∀ t : Fin cfg0.N, cfg0.idle 8 (grid0.coords t) = decide (t.val < 25) :=
  (by decide +kernel : ∀ t : Fin grid0.N, cfg0.idle 8 (grid0.coords t) = decide (t.val < 25))
/-- and is written back exactly after each point of phase 1 (its block index stays 0 all through phase 0 and at the first
    point of phase 1, then moves by one at every point). -/
theorem flush0_8 : ∀ t : Fin cfg0.N, (cfg0.win 8).flush t = decide (25 ≤ t.val) :=
  (by decide +kernel : ∀ t : Fin grid0.N, win0_8.flush t = decide (25 ≤ t.val))

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x32 .f32 := win0_8.stage (cfg0.slots t 8)
abbrev hs0_8 (t : Fin cfg0.N) : (ms0_8 t).IsWhole := hstage0_8 ((cfg0.slots t 8).cast nbuf0_8)
/-- The two scratch arrays: whole scoped buffers of the kernel's own. -/
abbrev scM0_0 : Memref sig .tc .vmem S10000x32 .f32 := Memref.whole cc0_scratch0
abbrev scM0_1 : Memref sig .tc .vmem S10000x32 .f32 := Memref.whole cc0_scratch1

/-- The region's class invariant, with the two scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Row slabs -/

/-- Rows `[o, o + 400)` of `s` overwritten by the slab `b`, the other rows kept. -/
def setRows (o : ℕ) (b : Vec F S400x32 .f32) (s : Vec F S10000x32 .f32) : Vec F S10000x32 .f32 := fun y =>
  if h : o ≤ (y (0 : Fin 2)).val ∧ (y (0 : Fin 2)).val < o + 400 then
    b (Rect.unitLocal (s := S10000x32) (off := ![o, 0]) (size := S400x32.size) y (Rect.unit_rows_mem y rfl rfl h))
  else s y

end Cert.Kernel.Hand

end
-- ==== Proof.KRunA.lean ====
/-
  The kernel body at a point of phase 0, for any float family. From the eight input buffers at their contents, the output
  buffer and the two scratch arrays at any contents, the body loads the adjacency slab, the features and the weights,
  stores the slab `h · W2_1` into rows `[o, o + 400)` of the first scratch array and the slab `h · W2_0 + b2` into the same
  rows of the second, and leaves everything else as it found it, the output buffer included.
-/
import proofs.«140956_g31370441130263_cont_sun_m_318_17_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of a `[400, 32]` slab at rows `[o, o + 400)` of a `[10000, 32]` buffer, read back: the slab on those rows,
    the earlier contents elsewhere. -/
theorem read_store_rows {sg : RefSig} {κ : Kind} {sp : Space} (v : View sg κ sp S10000x32 .f32) (f : v.ty.Contents (Elt F))
    (off : Fin 2 → ℕ) (o : ℕ) (hoff : off = ![o, 0]) (inb : ∀ a, off a + S400x32.size a ≤ S10000x32.size a)
    (w : Vec F S400x32 .f32) :
    v.read (Elt F) (v.writes (Elt F) f [(⟨Rect.unit (s := S10000x32) off S400x32.size inb, w⟩ : View.Piece (Elt F) S10000x32 .f32)])
      = setRows o w (v.read (Elt F) f) := by
  funext y
  exact View.read_writes_cons_rows (W := 400) v f inb w [] y hoff rfl rfl

set_option maxHeartbeats 1000000 in
/-- The body in phase 0 (the first branch taken, the second not). -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : cond0_0 i) (hc1 : ¬cond0_1 i)
    (o : ℕ) (ho : k0_off2 i = ![o, 0])
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (d8 : Vec F S400x32 .f32) (s0 s1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8
                ∗ owns (c : Thread nD τ) arg11 fullShare (setRows o (k0_pay2 x0 x1 (View.ld x1 (Rect.unit (s := S10000x128) (k0_off1 i) S400x128.size (k0_off1_inb i hc0))) x2 x3 x4 x6) s0)
                ∗ owns (c : Thread nD τ) arg12 fullShare (setRows o (k0_pay3 x0 x1 (View.ld x1 (Rect.unit (s := S10000x128) (k0_off1 i) S400x128.size (k0_off1_inb i hc0))) x2 x3 x4 x5 x7) s1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    have hz : (![0, 0] : Fin 2 → ℕ) = fun _ => 0 := by funext a; fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; swap; · iexact HS0
      ipureintro
      refine (read_store_rows arg11.view _ _ o ho _ _).trans ?_
      simp only [View.readAt_eq_ld, Memref.IsWhole.read_unread, View.ld_unit_zero (S := S400x10000) hz, View.ld_unit_zero (S := S10000x128) hz, View.ld_unit_zero (S := S128x128) hz, View.ld_unit_zero (S := S1x128) hz, View.ld_unit_zero (S := S128x32) hz, View.ld_unit_zero (S := S1x32) hz]
    iexists _; isplitr; swap; · iexact HS1
    ipureintro
    refine (read_store_rows arg12.view _ _ o ho _ _).trans ?_
    simp only [View.readAt_eq_ld, Memref.IsWhole.read_unread, View.ld_unit_zero (S := S400x10000) hz, View.ld_unit_zero (S := S10000x128) hz, View.ld_unit_zero (S := S128x128) hz, View.ld_unit_zero (S := S1x128) hz, View.ld_unit_zero (S := S128x32) hz, View.ld_unit_zero (S := S1x32) hz]

end Cert.Kernel.Hand

end
-- ==== Proof.KRunB.lean ====
/-
  The kernel body at a point of phase 1, for any float family. From the eight input buffers at their contents, the output
  buffer at any contents and the two scratch arrays at contents `s0`, `s1`, the body loads rows `[o, o + 400)` of the
  second scratch array, the adjacency slab and the whole first scratch array, stores into the output buffer the
  row-wise log-softmax of (those rows + slab · first scratch array), and leaves everything else as it found it.
-/
import proofs.«140956_g31370441130263_cont_sun_m_318_17_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in phase 1 (the first branch not taken, the second taken). -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : ¬cond0_0 i) (hc1 : cond0_1 i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (d8 : Vec F S400x32 .f32) (s0 s1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare (k0_pay4 (View.ld s1 (Rect.unit (s := S10000x32) (k0_off3 i) S400x32.size (k0_off3_inb i hc1))) x0 s0)
                ∗ owns (c : Thread nD τ) arg11 fullShare s0 ∗ owns (c : Thread nD τ) arg12 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    have hz : (![0, 0] : Fin 2 → ℕ) = fun _ => 0 := by funext a; fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine Eq.trans (funext fun y => View.read_writes_cons_unit_of_mem arg10.view _ _ _ [] y y rfl (fun a => by fin_cases a <;> exact (Nat.zero_add _).symm)) ?_
      simp only [View.readAt_eq_ld, Memref.IsWhole.read_unread, View.ld_unit_zero (S := S400x10000) hz, View.ld_unit_zero (S := S10000x32) hz]
    isplitl [HS0]
    · iexists _; isplitr; · ipureintro; exact harg11.read_unread _
      iexact HS0
    iexists _; isplitr; · ipureintro; exact harg12.read_unread _
    iexact HS1

end Cert.Kernel.Hand

end
-- ==== Proof.KBlocks.lean ====
/-
  The blocks the pipeline stages and the slabs the body loads, as row blocks of the whole arrays, for any float family.

  The adjacency window's block at point `t` is rows `400 · (t mod 25) …` of the adjacency matrix; every other input window
  holds its whole array at every point; the body's load of 400 rows of the features (phase 0) or of the second scratch
  array (phase 1) reads that row block; the output window's block at a point of phase 1 is the same row block of the
  result array, and those 25 blocks tile it.
-/
import proofs.«140956_g31370441130263_cont_sun_m_318_17_alg».proof.Proof.KRuns
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Layout (block Tiles)

variable (m : (ℓ : Loc nD τ sig) → Buf (Elt F) ℓ)

/-! ## The arrays as the region finds them, at their literal types -/

abbrev Xa (c : Dev nD) : Vec F S10000x128 .f32 := V m c main_arg0
abbrev Adj (c : Dev nD) : Vec F S10000x10000 .f32 := V m c main_arg1
abbrev W10a (c : Dev nD) : Vec F S128x128 .f32 := V m c main_arg2
abbrev W11a (c : Dev nD) : Vec F S128x128 .f32 := V m c main_arg3
abbrev B1r (c : Dev nD) : Vec F S1x128 .f32 := V m c main_call0_v0
abbrev W20a (c : Dev nD) : Vec F S128x32 .f32 := V m c main_arg5
abbrev W21a (c : Dev nD) : Vec F S128x32 .f32 := V m c main_arg6
abbrev B2r (c : Dev nD) : Vec F S1x32 .f32 := V m c main_call0_v1

/-- The row block a point works on: `t mod 25`. -/
abbrev rb (t : Fin cfg0.N) : Fin 25 := ⟨t.val % 25, Nat.mod_lt _ (by decide)⟩

/-! ## The input windows' blocks -/

/-- The adjacency window's block index at point `t`, decided over the grid: row block `t mod 25`, the one column block. -/
theorem idx0_facts : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)

/-- The adjacency window at point `t` holds rows `400 · (t mod 25) …` of the adjacency matrix. -/
theorem iblk0_eq (c : Dev nD) (t : Fin cfg0.N) :
    (iblk m c 0 t : Vec F S400x10000 .f32) = block S400x10000 S10000x10000 0 25 (rb t) (Adj m c) (by decide) := by
  funext y
  unfold iblk
  show V m c main_arg1 (((cfg0.win 0).blk t).view.emb y) = V m c main_arg1 (_)
  refine congrArg _ ?_
  funext a; apply Fin.ext
  obtain ⟨e0, e1⟩ := idx0_facts t
  -- a block's coordinate is its block index times the block's size plus the coordinate inside the block
  match a with
  | ⟨0, _⟩ => show win0_0.index t (0 : Fin 2) * 400 + 1 * (y 0).val = (t.val % 25) * 400 + (y 0).val; omega
  | ⟨1, _⟩ => show win0_0.index t (1 : Fin 2) * 10000 + 1 * (y 1).val = (y 1).val; omega

/-- The other input windows hold their whole arrays at every point: their one block, at block index `(0, 0)`. -/
theorem iblk1_eq (c : Dev nD) (t : Fin cfg0.N) : (iblk m c 1 t : Vec F S10000x128 .f32) = Xa m c := by
  funext y
  unfold iblk
  show V m c main_arg0 (((cfg0.win 1).blk t).view.emb y) = V m c main_arg0 y
  refine congrArg _ ?_
  funext a; apply Fin.ext
  match a with
  | ⟨0, _⟩ => show 0 * 10000 + 1 * (y 0).val = (y 0).val; omega
  | ⟨1, _⟩ => show 0 * 128 + 1 * (y 1).val = (y 1).val; omega
theorem iblk2_eq (c : Dev nD) (t : Fin cfg0.N) : (iblk m c 2 t : Vec F S128x128 .f32) = W10a m c := by
  funext y
  unfold iblk
  show V m c main_arg2 (((cfg0.win 2).blk t).view.emb y) = V m c main_arg2 y
  refine congrArg _ ?_
  funext a; apply Fin.ext
  match a with
  | ⟨0, _⟩ => show 0 * 128 + 1 * (y 0).val = (y 0).val; omega
  | ⟨1, _⟩ => show 0 * 128 + 1 * (y 1).val = (y 1).val; omega
theorem iblk3_eq (c : Dev nD) (t : Fin cfg0.N) : (iblk m c 3 t : Vec F S128x128 .f32) = W11a m c := by
  funext y
  unfold iblk
  show V m c main_arg3 (((cfg0.win 3).blk t).view.emb y) = V m c main_arg3 y
  refine congrArg _ ?_
  funext a; apply Fin.ext
  match a with
  | ⟨0, _⟩ => show 0 * 128 + 1 * (y 0).val = (y 0).val; omega
  | ⟨1, _⟩ => show 0 * 128 + 1 * (y 1).val = (y 1).val; omega
theorem iblk4_eq (c : Dev nD) (t : Fin cfg0.N) : (iblk m c 4 t : Vec F S1x128 .f32) = B1r m c := by
  funext y
  unfold iblk
  show V m c main_call0_v0 (((cfg0.win 4).blk t).view.emb y) = V m c main_call0_v0 y
  refine congrArg _ ?_
  funext a; apply Fin.ext
  match a with
  | ⟨0, _⟩ => show 0 * 1 + 1 * (y 0).val = (y 0).val; omega
  | ⟨1, _⟩ => show 0 * 128 + 1 * (y 1).val = (y 1).val; omega
theorem iblk5_eq (c : Dev nD) (t : Fin cfg0.N) : (iblk m c 5 t : Vec F S128x32 .f32) = W20a m c := by
  funext y
  unfold iblk
  show V m c main_arg5 (((cfg0.win 5).blk t).view.emb y) = V m c main_arg5 y
  refine congrArg _ ?_
  funext a; apply Fin.ext
  match a with
  | ⟨0, _⟩ => show 0 * 128 + 1 * (y 0).val = (y 0).val; omega
  | ⟨1, _⟩ => show 0 * 32 + 1 * (y 1).val = (y 1).val; omega
theorem iblk6_eq (c : Dev nD) (t : Fin cfg0.N) : (iblk m c 6 t : Vec F S128x32 .f32) = W21a m c := by
  funext y
  unfold iblk
  show V m c main_arg6 (((cfg0.win 6).blk t).view.emb y) = V m c main_arg6 y
  refine congrArg _ ?_
  funext a; apply Fin.ext
  match a with
  | ⟨0, _⟩ => show 0 * 128 + 1 * (y 0).val = (y 0).val; omega
  | ⟨1, _⟩ => show 0 * 32 + 1 * (y 1).val = (y 1).val; omega
theorem iblk7_eq (c : Dev nD) (t : Fin cfg0.N) : (iblk m c 7 t : Vec F S1x32 .f32) = B2r m c := by
  funext y
  unfold iblk
  show V m c main_call0_v1 (((cfg0.win 7).blk t).view.emb y) = V m c main_call0_v1 y
  refine congrArg _ ?_
  funext a; apply Fin.ext
  match a with
  | ⟨0, _⟩ => show 0 * 1 + 1 * (y 0).val = (y 0).val; omega
  | ⟨1, _⟩ => show 0 * 32 + 1 * (y 1).val = (y 1).val; omega

/-! ## The body's row loads -/

/-- The 400 rows of the features the body loads in phase 0 are the point's row block. -/
theorem ld_rows128 (t : Fin cfg0.N) (h : cond0_0 (grid0.coords t)) (X : Vec F S10000x128 .f32) :
    View.ld X (Rect.unit (s := S10000x128) (k0_off1 (grid0.coords t)) S400x128.size (k0_off1_inb (grid0.coords t) h))
      = block S400x128 S10000x128 0 25 (rb t) X (by decide) := by
  refine funext fun (x : S400x128.Idx) => ?_
  refine congrArg X ?_
  funext a; apply Fin.ext
  have e0 : k0_off1 (grid0.coords t) (0 : Fin 2) = 400 * (t.val % 25) := congrFun (off1_eq t) 0
  have e1 : k0_off1 (grid0.coords t) (1 : Fin 2) = 0 := congrFun (off1_eq t) 1
  -- a unit-stride rectangle's coordinate is its offset plus the coordinate inside it
  match a with
  | ⟨0, _⟩ => show k0_off1 (grid0.coords t) (0 : Fin 2) + 1 * (x 0).val = (t.val % 25) * 400 + (x 0).val; omega
  | ⟨1, _⟩ => show k0_off1 (grid0.coords t) (1 : Fin 2) + 1 * (x 1).val = (x 1).val; omega

/-- The 400 rows of the second scratch array the body loads in phase 1 are the point's row block. -/
theorem ld_rows32 (t : Fin cfg0.N) (h : cond0_1 (grid0.coords t)) (s : Vec F S10000x32 .f32) :
    View.ld s (Rect.unit (s := S10000x32) (k0_off3 (grid0.coords t)) S400x32.size (k0_off3_inb (grid0.coords t) h))
      = block S400x32 S10000x32 0 25 (rb t) s (by decide) := by
  refine funext fun (x : S400x32.Idx) => ?_
  refine congrArg s ?_
  funext a; apply Fin.ext
  have e0 : k0_off3 (grid0.coords t) (0 : Fin 2) = 400 * (t.val % 25) := congrFun (off3_eq t) 0
  have e1 : k0_off3 (grid0.coords t) (1 : Fin 2) = 0 := congrFun (off3_eq t) 1
  match a with
  | ⟨0, _⟩ => show k0_off3 (grid0.coords t) (0 : Fin 2) + 1 * (x 0).val = (t.val % 25) * 400 + (x 0).val; omega
  | ⟨1, _⟩ => show k0_off3 (grid0.coords t) (1 : Fin 2) + 1 * (x 1).val = (x 1).val; omega

/-! ## Row slabs of a `[10000, 32]` array -/

/-- The row block an entry lies in: `row / 400`. -/
def slabIdx (y : S10000x32.Idx) : Fin 25 := ⟨(y (0 : Fin 2)).val / 400, by have h : (y (0 : Fin 2)).val < 10000 := (y (0 : Fin 2)).isLt; omega⟩
/-- Its position inside that block: `(row mod 400, column)`. -/
def slabLoc (y : S10000x32.Idx) : S400x32.Idx :=
  ValueIdx.ix2 (⟨(y (0 : Fin 2)).val % 400, Nat.mod_lt _ (by decide)⟩ : Fin 400) (⟨(y (1 : Fin 2)).val, (y (1 : Fin 2)).isLt⟩ : Fin 32)

/-- Inside the slab just stored, `setRows` reads the slab: row `400 · r + p`, column `q` reads the slab at `(p, q)`. -/
theorem block_setRows (r : Fin 25) (b : Vec F S400x32 .f32) (s : Vec F S10000x32 .f32) :
    block S400x32 S10000x32 0 25 r (setRows (400 * r.val) b s) (by decide) = b := by
  funext x
  have hx0 : (x (0 : Fin 2)).val < 400 := (x (0 : Fin 2)).isLt
  -- row `p` of block `r` is row `r · 400 + p` of the whole array
  have h0 : (((by decide : Tiles S400x32 S10000x32 0 25).idx r x) (0 : Fin 2)).val = r.val * 400 + (x (0 : Fin 2)).val := rfl
  have h1 : (((by decide : Tiles S400x32 S10000x32 0 25).idx r x) (1 : Fin 2)).val = (x (1 : Fin 2)).val := rfl
  show setRows (400 * r.val) b s ((by decide : Tiles S400x32 S10000x32 0 25).idx r x) = b x
  unfold setRows
  rw [dif_pos ⟨by omega, by omega⟩]
  refine congrArg b ?_
  funext a; apply Fin.ext
  match a with
  | ⟨0, _⟩ => show (((by decide : Tiles S400x32 S10000x32 0 25).idx r x) (0 : Fin 2)).val - 400 * r.val = (x (0 : Fin 2)).val; omega
  | ⟨1, _⟩ => show (((by decide : Tiles S400x32 S10000x32 0 25).idx r x) (1 : Fin 2)).val - 0 = (x (1 : Fin 2)).val; omega

/-- Below the slab just stored, `setRows` keeps the earlier contents. -/
theorem setRows_of_lt (o : ℕ) (b : Vec F S400x32 .f32) (s : Vec F S10000x32 .f32) (y : S10000x32.Idx)
    (h : (y (0 : Fin 2)).val < o) : setRows o b s y = s y := by
  unfold setRows
  exact dif_neg fun hh => by omega

/-- An entry of a `[10000, 32]` array is an entry of its row block `row / 400`, at `(row mod 400, column)`. -/
theorem apply_eq_block (G : Vec F S10000x32 .f32) (y : S10000x32.Idx) :
    G y = block S400x32 S10000x32 0 25 (slabIdx y) G (by decide) (slabLoc y) := by
  show G y = G ((by decide : Tiles S400x32 S10000x32 0 25).idx (slabIdx y) (slabLoc y))
  refine congrArg G ?_
  funext a; apply Fin.ext
  match a with
  | ⟨0, _⟩ => show (y (0 : Fin 2)).val = (y (0 : Fin 2)).val / 400 * 400 + (y (0 : Fin 2)).val % 400; omega
  | ⟨1, _⟩ => show (y (1 : Fin 2)).val = (y (1 : Fin 2)).val; rfl

/-- The entries of row block `r` lie in row block `r`, at their own position. -/
theorem slab_of_block (r : Fin 25) (x : S400x32.Idx) :
    slabIdx ((by decide : Tiles S400x32 S10000x32 0 25).idx r x) = r ∧ slabLoc ((by decide : Tiles S400x32 S10000x32 0 25).idx r x) = x := by
  have hx0 : (x (0 : Fin 2)).val < 400 := (x (0 : Fin 2)).isLt
  constructor
  · apply Fin.ext
    show (r.val * 400 + (x (0 : Fin 2)).val) / 400 = r.val
    omega
  · funext a; apply Fin.ext
    match a with
    | ⟨0, _⟩ => show (r.val * 400 + (x (0 : Fin 2)).val) % 400 = (x (0 : Fin 2)).val; omega
    | ⟨1, _⟩ => show (x (1 : Fin 2)).val = (x (1 : Fin 2)).val; rfl

/-- Two `[10000, 32]` arrays with equal row blocks `0 … n − 1` agree on the rows below `400 · n`. -/
theorem eq_of_block_eq (G G' : Vec F S10000x32 .f32) (n : ℕ) (hn : n ≤ 25)
    (h : ∀ r : Fin 25, r.val < n → block S400x32 S10000x32 0 25 r G (by decide) = block S400x32 S10000x32 0 25 r G' (by decide))
    (y : S10000x32.Idx) (hy : (y (0 : Fin 2)).val < 400 * n) : G y = G' y := by
  have hr : (slabIdx y).val < n := by
    show (y (0 : Fin 2)).val / 400 < n
    omega
  exact (apply_eq_block G y).trans ((congrFun (h (slabIdx y) hr) (slabLoc y)).trans (apply_eq_block G' y).symm)

/-! ## The output window -/

/-- The output window's block index at a point of phase 1, decided over the grid: row block `t mod 25`, the one column block. -/
theorem idx8_facts : ∀ t : Fin cfg0.N, 25 ≤ t.val → win0_8.index t (0 : Fin 2) = t.val % 25 ∧ win0_8.index t (1 : Fin 2) = 0 :=
  (by decide +kernel : ∀ t : Fin grid0.N, 25 ≤ t.val → win0_8.index t (0 : Fin 2) = t.val % 25 ∧ win0_8.index t (1 : Fin 2) = 0)

/-- The output window's block at a point of phase 1, read off an array, is the point's row block of it. -/
theorem blk8_read (c : Dev nD) (t : Fin cfg0.N) (h : 25 ≤ t.val) (G : Buf (Elt F) ((cfg0.win 8).arr.view.loc (c.tc : Thread nD τ))) :
    (((cfg0.win 8).blk t).view.read (Elt F) G : Vec F S400x32 .f32) = block S400x32 S10000x32 0 25 (rb t) (G : Vec F S10000x32 .f32) (by decide) := by
  funext y
  show (G : Vec F S10000x32 .f32) (((cfg0.win 8).blk t).view.emb y) = (G : Vec F S10000x32 .f32) (_)
  refine congrArg _ ?_
  funext a; apply Fin.ext
  obtain ⟨e0, e1⟩ := idx8_facts t h
  match a with
  | ⟨0, _⟩ => show win0_8.index t (0 : Fin 2) * 400 + 1 * (y 0).val = (t.val % 25) * 400 + (y 0).val; omega
  | ⟨1, _⟩ => show win0_8.index t (1 : Fin 2) * 32 + 1 * (y 1).val = (y 1).val; omega

/-- An entry of the result array is in the output window's block at point `t` iff each coordinate is in the block's range. -/
theorem mem_blk8 (t : Fin cfg0.N) (i : S10000x32.Idx) :
    i ∈ ((cfg0.win 8).blk t).view.set ↔ ∀ a : Fin 2, win0_8.index t a * S400x32.size a ≤ (i a).val ∧ (i a).val < win0_8.index t a * S400x32.size a + S400x32.size a := by
  show i ∈ ((View.whole main_v0).slice (win0_8.rect t)).set ↔ _
  rw [View.set_slice_whole, Rect.mem_set_unit]
  exact Iff.rfl

/-- Every entry of the result array lies in the block some point of phase 1 writes back: row `ρ` in the block of point `25 + ρ / 400`. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have key : ∀ j : S10000x32.Idx, ∃ t : Fin cfg0.N, (cfg0.win 8).flush t = true ∧ j ∈ ((cfg0.win 8).blk t).view.set := by
    intro j
    have hj0 : (j (0 : Fin 2)).val < 10000 := (j (0 : Fin 2)).isLt
    have hj1 : (j (1 : Fin 2)).val < 32 := (j (1 : Fin 2)).isLt
    have hN : cfg0.N = 50 := by decide
    obtain ⟨t, ht⟩ : ∃ t : Fin cfg0.N, t.val = 25 + (j (0 : Fin 2)).val / 400 := ⟨⟨25 + (j (0 : Fin 2)).val / 400, by rw [hN]; omega⟩, rfl⟩
    obtain ⟨e0, e1⟩ := idx8_facts t (by omega)
    refine ⟨t, (flush0_8 t).trans (decide_eq_true (by omega)), ?_⟩
    rw [mem_blk8]
    intro a
    match a with
    | ⟨0, _⟩ => show win0_8.index t (0 : Fin 2) * 400 ≤ (j (0 : Fin 2)).val ∧ (j (0 : Fin 2)).val < win0_8.index t (0 : Fin 2) * 400 + 400; omega
    | ⟨1, _⟩ => show win0_8.index t (1 : Fin 2) * 32 ≤ (j (1 : Fin 2)).val ∧ (j (1 : Fin 2)).val < win0_8.index t (1 : Fin 2) * 32 + 32; omega
  exact key i

end Cert.Kernel.Hand

end
-- ==== Proof.KFrame.lean ====
/-
  The frame of the kernel's program, for any float family: the proof data of its one pipeline, the body obligation at
  every point, and the run.

  The two scratch arrays are filled one slab of 400 rows per point of phase 0: after the points `0 … n − 1` the rows
  below `400 · n` of the first hold `G0` (slab `r` of it is `h_r · W2_1`, `h_r` the hidden layer on rows `400 r …`) and
  those of the second hold `G1` (slab `r` is `h_r · W2_0 + b2`); the other rows hold whatever they held. That is the
  region's invariant (`PhiT`). From point 25 on both arrays are `G0`, `G1` whole, and the body leaves in the output
  buffer the slab `outSlab r`: the row-wise log-softmax of `G1_r + adj_r · G0`.
-/
import proofs.«140956_g31370441130263_cont_sun_m_318_17_alg».proof.Proof.KRunA
import proofs.«140956_g31370441130263_cont_sun_m_318_17_alg».proof.Proof.KRunB
import proofs.«140956_g31370441130263_cont_sun_m_318_17_alg».proof.Proof.KBlocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Layout (block Tiles)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch arrays are filled with, and what the output buffer is left at -/

/-- Slab `r` of `h · W2_1`: the body's first stored value at the point's blocks. -/
def gSlab (c : Dev nD) (r : Fin 25) : Vec F S400x32 .f32 :=
  k0_pay2 (block S400x10000 S10000x10000 0 25 r (Adj m c) (by decide)) (Xa m c) (block S400x128 S10000x128 0 25 r (Xa m c) (by decide))
    (W10a m c) (W11a m c) (B1r m c) (W21a m c)

/-- Slab `r` of `h · W2_0 + b2`: the body's second stored value at the point's blocks. -/
def hwSlab (c : Dev nD) (r : Fin 25) : Vec F S400x32 .f32 :=
  k0_pay3 (block S400x10000 S10000x10000 0 25 r (Adj m c) (by decide)) (Xa m c) (block S400x128 S10000x128 0 25 r (Xa m c) (by decide))
    (W10a m c) (W11a m c) (B1r m c) (W20a m c) (B2r m c)

/-- The first scratch array once phase 0 is over: the slabs `gSlab r` one under the other. -/
def G0 (c : Dev nD) : Vec F S10000x32 .f32 := fun y => gSlab m c (slabIdx y) (slabLoc y)
/-- The second: the slabs `hwSlab r`. -/
def G1 (c : Dev nD) : Vec F S10000x32 .f32 := fun y => hwSlab m c (slabIdx y) (slabLoc y)

theorem block_G0 (c : Dev nD) (r : Fin 25) : block S400x32 S10000x32 0 25 r (G0 m c) (by decide) = gSlab m c r := by
  funext x
  show gSlab m c (slabIdx _) (slabLoc _) = _
  rw [(slab_of_block r x).1, (slab_of_block r x).2]

theorem block_G1 (c : Dev nD) (r : Fin 25) : block S400x32 S10000x32 0 25 r (G1 m c) (by decide) = hwSlab m c r := by
  funext x
  show hwSlab m c (slabIdx _) (slabLoc _) = _
  rw [(slab_of_block r x).1, (slab_of_block r x).2]

/-- What a point of phase 1 leaves in the output buffer: the log-softmax of rows `400 r …` of `G1 + adj · G0`. -/
def outSlab (c : Dev nD) (r : Fin 25) : Vec F S400x32 .f32 :=
  k0_pay4 (block S400x32 S10000x32 0 25 r (G1 m c) (by decide)) (block S400x10000 S10000x10000 0 25 r (Adj m c) (by decide)) (G0 m c)

/-! ## The invariant -/

/-- After the points below `n`: the rows below `400 · min n 25` of the two scratch arrays hold `G0`, `G1`. -/
def Inv (c : Dev nD) (n : ℕ) (s0 s1 : Vec F S10000x32 .f32) : Prop :=
  ∀ y : S10000x32.Idx, (y (0 : Fin 2)).val < 400 * min n 25 → s0 y = G0 m c y ∧ s1 y = G1 m c y

/-- The region's invariant before point `n`: the two scratch arrays at contents with `Inv`, the generator register at some state. -/
def PhiT (c : Dev nD) (n : ℕ) : sProp 𝕄 :=
  iprop(iprop(∃ s0 s1, ⌜Inv m c n s0 s1⌝ ∗ owns (c : Thread nD τ) scM0_0 fullShare s0 ∗ owns (c : Thread nD τ) scM0_1 fullShare s1) ∗ (∃ r, prngReg c r))

/-- A point of phase 0 extends the filled rows by its slab. -/
theorem inv_stepA (c : Dev nD) (t : Fin cfg0.N) (h0 : t.val < 25) (hc : cond0_0 (grid0.coords t))
    (s0 s1 : Vec F S10000x32 .f32) (hinv : Inv m c t.val s0 s1) :
    Inv m c (t.val + 1)
      (setRows (400 * (t.val % 25)) (k0_pay2 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 6 t)) s0)
      (setRows (400 * (t.val % 25)) (k0_pay3 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 5 t) (iblk m c 7 t)) s1) := by
  have e2 : k0_pay2 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 6 t)
      = gSlab m c (rb t) := by
    rw [ld_rows128 t hc, iblk0_eq, iblk1_eq, iblk2_eq, iblk3_eq, iblk4_eq, iblk6_eq]; rfl
  have e3 : k0_pay3 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 5 t) (iblk m c 7 t)
      = hwSlab m c (rb t) := by
    rw [ld_rows128 t hc, iblk0_eq, iblk1_eq, iblk2_eq, iblk3_eq, iblk4_eq, iblk5_eq, iblk7_eq]; rfl
  rw [e2, e3]
  have hmod : t.val % 25 = t.val := Nat.mod_eq_of_lt h0
  intro y hy
  have hy' : (y (0 : Fin 2)).val < 400 * (t.val + 1) := by
    have : min (t.val + 1) 25 = t.val + 1 := Nat.min_eq_left (by omega)
    rw [this] at hy; exact hy
  by_cases hlt : (y (0 : Fin 2)).val < 400 * (t.val % 25)
  · rw [setRows_of_lt _ _ _ y hlt, setRows_of_lt _ _ _ y hlt]
    refine hinv y ?_
    have : min t.val 25 = t.val := Nat.min_eq_left (by omega)
    rw [this]; omega
  · have hidx : slabIdx y = rb t := Fin.ext (by
      show (y (0 : Fin 2)).val / 400 = t.val % 25
      omega)
    constructor
    · rw [apply_eq_block (setRows _ _ s0) y, hidx]
      rw [show (400 * (t.val % 25)) = 400 * (rb t).val from rfl, block_setRows]
      show _ = gSlab m c (slabIdx y) (slabLoc y)
      rw [hidx]
    · rw [apply_eq_block (setRows _ _ s1) y, hidx]
      rw [show (400 * (t.val % 25)) = 400 * (rb t).val from rfl, block_setRows]
      show _ = hwSlab m c (slabIdx y) (slabLoc y)
      rw [hidx]

/-- From point 25 on the two scratch arrays are `G0` and `G1`. -/
theorem inv_full (c : Dev nD) (n : ℕ) (hn : 25 ≤ n) (s0 s1 : Vec F S10000x32 .f32) (hinv : Inv m c n s0 s1) :
    s0 = G0 m c ∧ s1 = G1 m c := by
  have hmin : min n 25 = 25 := Nat.min_eq_right hn
  have hall : ∀ y : S10000x32.Idx, s0 y = G0 m c y ∧ s1 y = G1 m c y := fun y => hinv y (by
    rw [hmin]; exact (y (0 : Fin 2)).isLt)
  exact ⟨funext fun y => (hall y).1, funext fun y => (hall y).2⟩

/-- A point of phase 1 keeps them. -/
theorem inv_stepB (c : Dev nD) (n : ℕ) (hn : 25 ≤ n) (s0 s1 : Vec F S10000x32 .f32) (hinv : Inv m c n s0 s1) :
    Inv m c (n + 1) s0 s1 := by
  intro y hy
  refine hinv y ?_
  rw [Nat.min_eq_right hn]; rw [Nat.min_eq_right (by omega)] at hy; exact hy

/-- What a point of phase 1 stores is its output slab. -/
theorem out_stepB (c : Dev nD) (t : Fin cfg0.N) (h1 : 25 ≤ t.val) (hc : cond0_1 (grid0.coords t))
    (s0 s1 : Vec F S10000x32 .f32) (hinv : Inv m c t.val s0 s1) :
    k0_pay4 (View.ld s1 (Rect.unit (s := S10000x32) (k0_off3 (grid0.coords t)) S400x32.size (k0_off3_inb (grid0.coords t) hc))) (iblk m c 0 t) s0
      = outSlab m c (rb t) := by
  obtain ⟨rfl, rfl⟩ := inv_full m c t.val h1 s0 s1 hinv
  rw [iblk0_eq, ld_rows32 t hc]
  rfl

/-! ## The pipeline's proof data -/

/-- The proof data of the one pipeline on core `c`: the arrays as the region finds them; after the body each input's
    buffer at its block, the output's at the point's slab; the invariant `PhiT`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outSlab m c (rb t)
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outSlab m c (rb t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: in phase 0 it extends the filled rows of the scratch arrays by the point's slab and hands the
    output buffer back untouched (the window is idle and not written back); in phase 1 it keeps the scratch arrays and
    leaves the point's output slab. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.castSucc = PhiT m c t.val from by dsimp only [dats]; simp only [Fin.coe_castSucc],
    show (dats m 0 c).Φ t.succ = PhiT m c (t.val + 1) from rfl]
  unfold PhiT
  have hN : t.val < 50 := lt_of_lt_of_eq t.isLt (show cfg0.N = 50 from N_0)
  by_cases h0 : t.val < 25
  · have hc0 : cond0_0 (grid0.coords t) := (hcond0_0 t).mpr h0
    have hc1 : ¬cond0_1 (grid0.coords t) := fun h => absurd ((hcond0_1 t).mp h) (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t ((idle0_8 t).trans (decide_eq_true h0)) ((flush0_8 t).trans (decide_eq_false (by omega)))]
    iintro ⟨⟨⟨%s0, %s1, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ hc0 hc1 (400 * (t.val % 25)) (off2_eq t) (iblk m c 0 t) (iblk m c 1 t) (iblk m c 2 t) (iblk m c 3 t) (iblk m c 4 t) (iblk m c 5 t) (iblk m c 6 t) (iblk m c 7 t) ((dats m 0 c).before 8 t d8) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · iexists _, _
        isplitr; · ipureintro; exact inv_stepA m c t h0 hc0 s0 s1 hinv
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : 25 ≤ t.val := by omega
    have hc0 : ¬cond0_0 (grid0.coords t) := fun h => h0 ((hcond0_0 t).mp h)
    have hc1 : cond0_1 (grid0.coords t) := (hcond0_1 t).mpr h1
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [(idle0_8 t).trans (decide_eq_false h0)], after0_8]
    iintro ⟨⟨⟨%s0, %s1, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) ((dats m 0 c).before 8 t d8) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [out_stepB m c t h1 hc1 s0 s1 hinv]
    isplitl [HS0 HS1 Hg]
    · isplitl [HS0 HS1]
      · iexists _, _
        isplitr; · ipureintro; exact inv_stepB m c t.val h1 s0 s1 hinv
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [show (dats m 0 c).Φ 0 = PhiT m c 0 from rfl, PhiA0_eq]
  unfold PhiT
  iintro ⟨⟨⟨%d0, HS0⟩, ⟨%d1, HS1⟩⟩, Hg⟩
  isplitl [HS0 HS1]
  · iexists d0, d1
    isplitr; · ipureintro; exact fun y hy => absurd hy (by simp)
    isplitl [HS0]; · iexact HS0
    iexact HS1
  iexact Hg

/-- After the last point the invariant gives the class's back: what the scratch arrays hold is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA0_eq]
  unfold PhiT
  iintro ⟨⟨%s0, %s1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from the
    proof data, every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KiRuns.lean ====
/-
  What the kernel body's two runs are stated over, for any float family: the two branch conditions of the body decided
  over the grid (the first 25 points compute the hidden layer and fill the two scratch arrays, the last 25 read them
  back), where the output window is idle and when it is written back, the offsets of the row slabs in closed form, the
  staging memrefs the pipeline passes, and the two elementary re-addressings the runs speak in: rows `[o, o + 400)` of a
  `[10000, 32]` array overwritten by a `[400, 32]` slab (`setRows`), and the slab of rows a load reads.
-/
import proofs.«140956_g31370441130263_cont_sun_m_318_17_alg».proof.Proof.Gen.KernelIdeal.Frame
import proofs.«140956_g31370441130263_cont_sun_m_318_17_alg».proof.Proof.Gen.KernelIdeal.Skeleton
import Idealize.ShloMosaic.Lib.WritesUnit
import Idealize.ShloMosaic.Lib.Pipeline.Value
import Idealize.ShloMosaic.Lib.Layout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases -/

/-- The first branch of the body is taken: the point is in phase 0. -/
abbrev cond0_0 (i : grid0.Coords) : Prop := k0_cond1 i = 1#1
/-- The second branch of the body is taken: the point is in phase 1. -/
abbrev cond0_1 (i : grid0.Coords) : Prop := k0_cond2 i = 1#1

/-- Phase 0 is the first 25 points. -/
theorem hcond0_0 : ∀ t : Fin cfg0.N, cond0_0 (grid0.coords t) ↔ t.val < 25 :=
  (by decide +kernel : ∀ t : Fin grid0.N, cond0_0 (grid0.coords t) ↔ t.val < 25)
/-- Phase 1 is the last 25 points. -/
theorem hcond0_1 : ∀ t : Fin cfg0.N, cond0_1 (grid0.coords t) ↔ 25 ≤ t.val :=
  (by decide +kernel : ∀ t : Fin grid0.N, cond0_1 (grid0.coords t) ↔ 25 ≤ t.val)

/-- The slab of rows a point works on starts at row `400 · (t mod 25)`. -/
theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])
theorem off3_eq : ∀ t : Fin cfg0.N, k0_off3 (grid0.coords t) = ![400 * (t.val % 25), 0] :=
  (by decide +kernel : ∀ t : Fin grid0.N, k0_off3 (grid0.coords t) = ![400 * (t.val % 25), 0])

/-! ## Where the windows are idle, and when the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- The output window is idle exactly in phase 0 (the body stores into it only in phase 1), -/
theorem idle0_8 : ∀ t : Fin cfg0.N, cfg0.idle 8 (grid0.coords t) = decide (t.val < 25) :=
  (by decide +kernel : ∀ t : Fin grid0.N, cfg0.idle 8 (grid0.coords t) = decide (t.val < 25))
/-- and is written back exactly after each point of phase 1 (its block index stays 0 all through phase 0 and at the first
    point of phase 1, then moves by one at every point). -/
theorem flush0_8 : ∀ t : Fin cfg0.N, (cfg0.win 8).flush t = decide (25 ≤ t.val) :=
  (by decide +kernel : ∀ t : Fin grid0.N, win0_8.flush t = decide (25 ≤ t.val))

/-! ## The memrefs the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x32 .f32 := win0_8.stage (cfg0.slots t 8)
abbrev hs0_8 (t : Fin cfg0.N) : (ms0_8 t).IsWhole := hstage0_8 ((cfg0.slots t 8).cast nbuf0_8)
/-- The two scratch arrays: whole scoped buffers of the kernel's own. -/
abbrev scM0_0 : Memref sig .tc .vmem S10000x32 .f32 := Memref.whole cc0_scratch0
abbrev scM0_1 : Memref sig .tc .vmem S10000x32 .f32 := Memref.whole cc0_scratch1

/-- The region's class invariant, with the two scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Row slabs -/

/-- Rows `[o, o + 400)` of `s` overwritten by the slab `b`, the other rows kept. -/
def setRows (o : ℕ) (b : Vec F S400x32 .f32) (s : Vec F S10000x32 .f32) : Vec F S10000x32 .f32 := fun y =>
  if h : o ≤ (y (0 : Fin 2)).val ∧ (y (0 : Fin 2)).val < o + 400 then
    b (Rect.unitLocal (s := S10000x32) (off := ![o, 0]) (size := S400x32.size) y (Rect.unit_rows_mem y rfl rfl h))
  else s y

end Cert.KernelIdeal.Hand

end
-- ==== Proof.KiRunA.lean ====
/-
  The kernel body at a point of phase 0, for any float family. From the eight input buffers at their contents, the output
  buffer and the two scratch arrays at any contents, the body loads the adjacency slab, the features and the weights,
  stores the slab `h · W2_1` into rows `[o, o + 400)` of the first scratch array and the slab `h · W2_0 + b2` into the same
  rows of the second, and leaves everything else as it found it, the output buffer included.
-/
import proofs.«140956_g31370441130263_cont_sun_m_318_17_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of a `[400, 32]` slab at rows `[o, o + 400)` of a `[10000, 32]` buffer, read back: the slab on those rows,
    the earlier contents elsewhere. -/
theorem read_store_rows {sg : RefSig} {κ : Kind} {sp : Space} (v : View sg κ sp S10000x32 .f32) (f : v.ty.Contents (Elt F))
    (off : Fin 2 → ℕ) (o : ℕ) (hoff : off = ![o, 0]) (inb : ∀ a, off a + S400x32.size a ≤ S10000x32.size a)
    (w : Vec F S400x32 .f32) :
    v.read (Elt F) (v.writes (Elt F) f [(⟨Rect.unit (s := S10000x32) off S400x32.size inb, w⟩ : View.Piece (Elt F) S10000x32 .f32)])
      = setRows o w (v.read (Elt F) f) := by
  funext y
  exact View.read_writes_cons_rows (W := 400) v f inb w [] y hoff rfl rfl

set_option maxHeartbeats 1000000 in
/-- The body in phase 0 (the first branch taken, the second not). -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : cond0_0 i) (hc1 : ¬cond0_1 i)
    (o : ℕ) (ho : k0_off2 i = ![o, 0])
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (d8 : Vec F S400x32 .f32) (s0 s1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8
                ∗ owns (c : Thread nD τ) arg11 fullShare (setRows o (k0_pay2 x0 x1 (View.ld x1 (Rect.unit (s := S10000x128) (k0_off1 i) S400x128.size (k0_off1_inb i hc0))) x2 x3 x4 x6) s0)
                ∗ owns (c : Thread nD τ) arg12 fullShare (setRows o (k0_pay3 x0 x1 (View.ld x1 (Rect.unit (s := S10000x128) (k0_off1 i) S400x128.size (k0_off1_inb i hc0))) x2 x3 x4 x5 x7) s1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    have hz : (![0, 0] : Fin 2 → ℕ) = fun _ => 0 := by funext a; fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; isplitr; swap; · iexact HS0
      ipureintro
      refine (read_store_rows arg11.view _ _ o ho _ _).trans ?_
      simp only [View.readAt_eq_ld, Memref.IsWhole.read_unread, View.ld_unit_zero (S := S400x10000) hz, View.ld_unit_zero (S := S10000x128) hz, View.ld_unit_zero (S := S128x128) hz, View.ld_unit_zero (S := S1x128) hz, View.ld_unit_zero (S := S128x32) hz, View.ld_unit_zero (S := S1x32) hz]
    iexists _; isplitr; swap; · iexact HS1
    ipureintro
    refine (read_store_rows arg12.view _ _ o ho _ _).trans ?_
    simp only [View.readAt_eq_ld, Memref.IsWhole.read_unread, View.ld_unit_zero (S := S400x10000) hz, View.ld_unit_zero (S := S10000x128) hz, View.ld_unit_zero (S := S128x128) hz, View.ld_unit_zero (S := S1x128) hz, View.ld_unit_zero (S := S128x32) hz, View.ld_unit_zero (S := S1x32) hz]

end Cert.KernelIdeal.Hand

end
-- ==== Proof.KiRunB.lean ====
/-
  The kernel body at a point of phase 1, for any float family. From the eight input buffers at their contents, the output
  buffer at any contents and the two scratch arrays at contents `s0`, `s1`, the body loads rows `[o, o + 400)` of the
  second scratch array, the adjacency slab and the whole first scratch array, stores into the output buffer the
  row-wise log-softmax of (those rows + slab · first scratch array), and leaves everything else as it found it.
-/
import proofs.«140956_g31370441130263_cont_sun_m_318_17_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in phase 1 (the first branch not taken, the second taken). -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : ¬cond0_0 i) (hc1 : cond0_1 i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (d8 : Vec F S400x32 .f32) (s0 s1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare (k0_pay4 (View.ld s1 (Rect.unit (s := S10000x32) (k0_off3 i) S400x32.size (k0_off3_inb i hc1))) x0 s0)
                ∗ owns (c : Thread nD τ) arg11 fullShare s0 ∗ owns (c : Thread nD τ) arg12 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    have hz : (![0, 0] : Fin 2 → ℕ) = fun _ => 0 := by funext a; fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine Eq.trans (funext fun y => View.read_writes_cons_unit_of_mem arg10.view _ _ _ [] y y rfl (fun a => by fin_cases a <;> exact (Nat.zero_add _).symm)) ?_
      simp only [View.readAt_eq_ld, Memref.IsWhole.read_unread, View.ld_unit_zero (S := S400x10000) hz, View.ld_unit_zero (S := S10000x32) hz]
    isplitl [HS0]
    · iexists _; isplitr; · ipureintro; exact harg11.read_unread _
      iexact HS0
    iexists _; isplitr; · ipureintro; exact harg12.read_unread _
    iexact HS1

end Cert.KernelIdeal.Hand

end
-- ==== Proof.KiBlocks.lean ====
/-
  The blocks the pipeline stages and the slabs the body loads, as row blocks of the whole arrays, for any float family.

  The adjacency window's block at point `t` is rows `400 · (t mod 25) …` of the adjacency matrix; every other input window
  holds its whole array at every point; the body's load of 400 rows of the features (phase 0) or of the second scratch
  array (phase 1) reads that row block; the output window's block at a point of phase 1 is the same row block of the
  result array, and those 25 blocks tile it.
-/
import proofs.«140956_g31370441130263_cont_sun_m_318_17_alg».proof.Proof.KiRuns
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Layout (block Tiles)

variable (m : (ℓ : Loc nD τ sig) → Buf (Elt F) ℓ)

/-! ## The arrays as the region finds them, at their literal types -/

abbrev Xa (c : Dev nD) : Vec F S10000x128 .f32 := V m c main_arg0
abbrev Adj (c : Dev nD) : Vec F S10000x10000 .f32 := V m c main_arg1
abbrev W10a (c : Dev nD) : Vec F S128x128 .f32 := V m c main_arg2
abbrev W11a (c : Dev nD) : Vec F S128x128 .f32 := V m c main_arg3
abbrev B1r (c : Dev nD) : Vec F S1x128 .f32 := V m c main_call0_v0
abbrev W20a (c : Dev nD) : Vec F S128x32 .f32 := V m c main_arg5
abbrev W21a (c : Dev nD) : Vec F S128x32 .f32 := V m c main_arg6
abbrev B2r (c : Dev nD) : Vec F S1x32 .f32 := V m c main_call0_v1

/-- The row block a point works on: `t mod 25`. -/
abbrev rb (t : Fin cfg0.N) : Fin 25 := ⟨t.val % 25, Nat.mod_lt _ (by decide)⟩

/-! ## The input windows' blocks -/

/-- The adjacency window's block index at point `t`, decided over the grid: row block `t mod 25`, the one column block. -/
theorem idx0_facts : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)

/-- The adjacency window at point `t` holds rows `400 · (t mod 25) …` of the adjacency matrix. -/
theorem iblk0_eq (c : Dev nD) (t : Fin cfg0.N) :
    (iblk m c 0 t : Vec F S400x10000 .f32) = block S400x10000 S10000x10000 0 25 (rb t) (Adj m c) (by decide) := by
  funext y
  unfold iblk
  show V m c main_arg1 (((cfg0.win 0).blk t).view.emb y) = V m c main_arg1 (_)
  refine congrArg _ ?_
  funext a; apply Fin.ext
  obtain ⟨e0, e1⟩ := idx0_facts t
  -- a block's coordinate is its block index times the block's size plus the coordinate inside the block
  match a with
  | ⟨0, _⟩ => show win0_0.index t (0 : Fin 2) * 400 + 1 * (y 0).val = (t.val % 25) * 400 + (y 0).val; omega
  | ⟨1, _⟩ => show win0_0.index t (1 : Fin 2) * 10000 + 1 * (y 1).val = (y 1).val; omega

/-- The other input windows hold their whole arrays at every point: their one block, at block index `(0, 0)`. -/
theorem iblk1_eq (c : Dev nD) (t : Fin cfg0.N) : (iblk m c 1 t : Vec F S10000x128 .f32) = Xa m c := by
  funext y
  unfold iblk
  show V m c main_arg0 (((cfg0.win 1).blk t).view.emb y) = V m c main_arg0 y
  refine congrArg _ ?_
  funext a; apply Fin.ext
  match a with
  | ⟨0, _⟩ => show 0 * 10000 + 1 * (y 0).val = (y 0).val; omega
  | ⟨1, _⟩ => show 0 * 128 + 1 * (y 1).val = (y 1).val; omega
theorem iblk2_eq (c : Dev nD) (t : Fin cfg0.N) : (iblk m c 2 t : Vec F S128x128 .f32) = W10a m c := by
  funext y
  unfold iblk
  show V m c main_arg2 (((cfg0.win 2).blk t).view.emb y) = V m c main_arg2 y
  refine congrArg _ ?_
  funext a; apply Fin.ext
  match a with
  | ⟨0, _⟩ => show 0 * 128 + 1 * (y 0).val = (y 0).val; omega
  | ⟨1, _⟩ => show 0 * 128 + 1 * (y 1).val = (y 1).val; omega
theorem iblk3_eq (c : Dev nD) (t : Fin cfg0.N) : (iblk m c 3 t : Vec F S128x128 .f32) = W11a m c := by
  funext y
  unfold iblk
  show V m c main_arg3 (((cfg0.win 3).blk t).view.emb y) = V m c main_arg3 y
  refine congrArg _ ?_
  funext a; apply Fin.ext
  match a with
  | ⟨0, _⟩ => show 0 * 128 + 1 * (y 0).val = (y 0).val; omega
  | ⟨1, _⟩ => show 0 * 128 + 1 * (y 1).val = (y 1).val; omega
theorem iblk4_eq (c : Dev nD) (t : Fin cfg0.N) : (iblk m c 4 t : Vec F S1x128 .f32) = B1r m c := by
  funext y
  unfold iblk
  show V m c main_call0_v0 (((cfg0.win 4).blk t).view.emb y) = V m c main_call0_v0 y
  refine congrArg _ ?_
  funext a; apply Fin.ext
  match a with
  | ⟨0, _⟩ => show 0 * 1 + 1 * (y 0).val = (y 0).val; omega
  | ⟨1, _⟩ => show 0 * 128 + 1 * (y 1).val = (y 1).val; omega
theorem iblk5_eq (c : Dev nD) (t : Fin cfg0.N) : (iblk m c 5 t : Vec F S128x32 .f32) = W20a m c := by
  funext y
  unfold iblk
  show V m c main_arg5 (((cfg0.win 5).blk t).view.emb y) = V m c main_arg5 y
  refine congrArg _ ?_
  funext a; apply Fin.ext
  match a with
  | ⟨0, _⟩ => show 0 * 128 + 1 * (y 0).val = (y 0).val; omega
  | ⟨1, _⟩ => show 0 * 32 + 1 * (y 1).val = (y 1).val; omega
theorem iblk6_eq (c : Dev nD) (t : Fin cfg0.N) : (iblk m c 6 t : Vec F S128x32 .f32) = W21a m c := by
  funext y
  unfold iblk
  show V m c main_arg6 (((cfg0.win 6).blk t).view.emb y) = V m c main_arg6 y
  refine congrArg _ ?_
  funext a; apply Fin.ext
  match a with
  | ⟨0, _⟩ => show 0 * 128 + 1 * (y 0).val = (y 0).val; omega
  | ⟨1, _⟩ => show 0 * 32 + 1 * (y 1).val = (y 1).val; omega
theorem iblk7_eq (c : Dev nD) (t : Fin cfg0.N) : (iblk m c 7 t : Vec F S1x32 .f32) = B2r m c := by
  funext y
  unfold iblk
  show V m c main_call0_v1 (((cfg0.win 7).blk t).view.emb y) = V m c main_call0_v1 y
  refine congrArg _ ?_
  funext a; apply Fin.ext
  match a with
  | ⟨0, _⟩ => show 0 * 1 + 1 * (y 0).val = (y 0).val; omega
  | ⟨1, _⟩ => show 0 * 32 + 1 * (y 1).val = (y 1).val; omega

/-! ## The body's row loads -/

/-- The 400 rows of the features the body loads in phase 0 are the point's row block. -/
theorem ld_rows128 (t : Fin cfg0.N) (h : cond0_0 (grid0.coords t)) (X : Vec F S10000x128 .f32) :
    View.ld X (Rect.unit (s := S10000x128) (k0_off1 (grid0.coords t)) S400x128.size (k0_off1_inb (grid0.coords t) h))
      = block S400x128 S10000x128 0 25 (rb t) X (by decide) := by
  refine funext fun (x : S400x128.Idx) => ?_
  refine congrArg X ?_
  funext a; apply Fin.ext
  have e0 : k0_off1 (grid0.coords t) (0 : Fin 2) = 400 * (t.val % 25) := congrFun (off1_eq t) 0
  have e1 : k0_off1 (grid0.coords t) (1 : Fin 2) = 0 := congrFun (off1_eq t) 1
  -- a unit-stride rectangle's coordinate is its offset plus the coordinate inside it
  match a with
  | ⟨0, _⟩ => show k0_off1 (grid0.coords t) (0 : Fin 2) + 1 * (x 0).val = (t.val % 25) * 400 + (x 0).val; omega
  | ⟨1, _⟩ => show k0_off1 (grid0.coords t) (1 : Fin 2) + 1 * (x 1).val = (x 1).val; omega

/-- The 400 rows of the second scratch array the body loads in phase 1 are the point's row block. -/
theorem ld_rows32 (t : Fin cfg0.N) (h : cond0_1 (grid0.coords t)) (s : Vec F S10000x32 .f32) :
    View.ld s (Rect.unit (s := S10000x32) (k0_off3 (grid0.coords t)) S400x32.size (k0_off3_inb (grid0.coords t) h))
      = block S400x32 S10000x32 0 25 (rb t) s (by decide) := by
  refine funext fun (x : S400x32.Idx) => ?_
  refine congrArg s ?_
  funext a; apply Fin.ext
  have e0 : k0_off3 (grid0.coords t) (0 : Fin 2) = 400 * (t.val % 25) := congrFun (off3_eq t) 0
  have e1 : k0_off3 (grid0.coords t) (1 : Fin 2) = 0 := congrFun (off3_eq t) 1
  match a with
  | ⟨0, _⟩ => show k0_off3 (grid0.coords t) (0 : Fin 2) + 1 * (x 0).val = (t.val % 25) * 400 + (x 0).val; omega
  | ⟨1, _⟩ => show k0_off3 (grid0.coords t) (1 : Fin 2) + 1 * (x 1).val = (x 1).val; omega

/-! ## Row slabs of a `[10000, 32]` array -/

/-- The row block an entry lies in: `row / 400`. -/
def slabIdx (y : S10000x32.Idx) : Fin 25 := ⟨(y (0 : Fin 2)).val / 400, by have h : (y (0 : Fin 2)).val < 10000 := (y (0 : Fin 2)).isLt; omega⟩
/-- Its position inside that block: `(row mod 400, column)`. -/
def slabLoc (y : S10000x32.Idx) : S400x32.Idx :=
  ValueIdx.ix2 (⟨(y (0 : Fin 2)).val % 400, Nat.mod_lt _ (by decide)⟩ : Fin 400) (⟨(y (1 : Fin 2)).val, (y (1 : Fin 2)).isLt⟩ : Fin 32)

/-- Inside the slab just stored, `setRows` reads the slab: row `400 · r + p`, column `q` reads the slab at `(p, q)`. -/
theorem block_setRows (r : Fin 25) (b : Vec F S400x32 .f32) (s : Vec F S10000x32 .f32) :
    block S400x32 S10000x32 0 25 r (setRows (400 * r.val) b s) (by decide) = b := by
  funext x
  have hx0 : (x (0 : Fin 2)).val < 400 := (x (0 : Fin 2)).isLt
  -- row `p` of block `r` is row `r · 400 + p` of the whole array
  have h0 : (((by decide : Tiles S400x32 S10000x32 0 25).idx r x) (0 : Fin 2)).val = r.val * 400 + (x (0 : Fin 2)).val := rfl
  have h1 : (((by decide : Tiles S400x32 S10000x32 0 25).idx r x) (1 : Fin 2)).val = (x (1 : Fin 2)).val := rfl
  show setRows (400 * r.val) b s ((by decide : Tiles S400x32 S10000x32 0 25).idx r x) = b x
  unfold setRows
  rw [dif_pos ⟨by omega, by omega⟩]
  refine congrArg b ?_
  funext a; apply Fin.ext
  match a with
  | ⟨0, _⟩ => show (((by decide : Tiles S400x32 S10000x32 0 25).idx r x) (0 : Fin 2)).val - 400 * r.val = (x (0 : Fin 2)).val; omega
  | ⟨1, _⟩ => show (((by decide : Tiles S400x32 S10000x32 0 25).idx r x) (1 : Fin 2)).val - 0 = (x (1 : Fin 2)).val; omega

/-- Below the slab just stored, `setRows` keeps the earlier contents. -/
theorem setRows_of_lt (o : ℕ) (b : Vec F S400x32 .f32) (s : Vec F S10000x32 .f32) (y : S10000x32.Idx)
    (h : (y (0 : Fin 2)).val < o) : setRows o b s y = s y := by
  unfold setRows
  exact dif_neg fun hh => by omega

/-- An entry of a `[10000, 32]` array is an entry of its row block `row / 400`, at `(row mod 400, column)`. -/
theorem apply_eq_block (G : Vec F S10000x32 .f32) (y : S10000x32.Idx) :
    G y = block S400x32 S10000x32 0 25 (slabIdx y) G (by decide) (slabLoc y) := by
  show G y = G ((by decide : Tiles S400x32 S10000x32 0 25).idx (slabIdx y) (slabLoc y))
  refine congrArg G ?_
  funext a; apply Fin.ext
  match a with
  | ⟨0, _⟩ => show (y (0 : Fin 2)).val = (y (0 : Fin 2)).val / 400 * 400 + (y (0 : Fin 2)).val % 400; omega
  | ⟨1, _⟩ => show (y (1 : Fin 2)).val = (y (1 : Fin 2)).val; rfl

/-- The entries of row block `r` lie in row block `r`, at their own position. -/
theorem slab_of_block (r : Fin 25) (x : S400x32.Idx) :
    slabIdx ((by decide : Tiles S400x32 S10000x32 0 25).idx r x) = r ∧ slabLoc ((by decide : Tiles S400x32 S10000x32 0 25).idx r x) = x := by
  have hx0 : (x (0 : Fin 2)).val < 400 := (x (0 : Fin 2)).isLt
  constructor
  · apply Fin.ext
    show (r.val * 400 + (x (0 : Fin 2)).val) / 400 = r.val
    omega
  · funext a; apply Fin.ext
    match a with
    | ⟨0, _⟩ => show (r.val * 400 + (x (0 : Fin 2)).val) % 400 = (x (0 : Fin 2)).val; omega
    | ⟨1, _⟩ => show (x (1 : Fin 2)).val = (x (1 : Fin 2)).val; rfl

/-- Two `[10000, 32]` arrays with equal row blocks `0 … n − 1` agree on the rows below `400 · n`. -/
theorem eq_of_block_eq (G G' : Vec F S10000x32 .f32) (n : ℕ) (hn : n ≤ 25)
    (h : ∀ r : Fin 25, r.val < n → block S400x32 S10000x32 0 25 r G (by decide) = block S400x32 S10000x32 0 25 r G' (by decide))
    (y : S10000x32.Idx) (hy : (y (0 : Fin 2)).val < 400 * n) : G y = G' y := by
  have hr : (slabIdx y).val < n := by
    show (y (0 : Fin 2)).val / 400 < n
    omega
  exact (apply_eq_block G y).trans ((congrFun (h (slabIdx y) hr) (slabLoc y)).trans (apply_eq_block G' y).symm)

/-! ## The output window -/

/-- The output window's block index at a point of phase 1, decided over the grid: row block `t mod 25`, the one column block. -/
theorem idx8_facts : ∀ t : Fin cfg0.N, 25 ≤ t.val → win0_8.index t (0 : Fin 2) = t.val % 25 ∧ win0_8.index t (1 : Fin 2) = 0 :=
  (by decide +kernel : ∀ t : Fin grid0.N, 25 ≤ t.val → win0_8.index t (0 : Fin 2) = t.val % 25 ∧ win0_8.index t (1 : Fin 2) = 0)

/-- The output window's block at a point of phase 1, read off an array, is the point's row block of it. -/
theorem blk8_read (c : Dev nD) (t : Fin cfg0.N) (h : 25 ≤ t.val) (G : Buf (Elt F) ((cfg0.win 8).arr.view.loc (c.tc : Thread nD τ))) :
    (((cfg0.win 8).blk t).view.read (Elt F) G : Vec F S400x32 .f32) = block S400x32 S10000x32 0 25 (rb t) (G : Vec F S10000x32 .f32) (by decide) := by
  funext y
  show (G : Vec F S10000x32 .f32) (((cfg0.win 8).blk t).view.emb y) = (G : Vec F S10000x32 .f32) (_)
  refine congrArg _ ?_
  funext a; apply Fin.ext
  obtain ⟨e0, e1⟩ := idx8_facts t h
  match a with
  | ⟨0, _⟩ => show win0_8.index t (0 : Fin 2) * 400 + 1 * (y 0).val = (t.val % 25) * 400 + (y 0).val; omega
  | ⟨1, _⟩ => show win0_8.index t (1 : Fin 2) * 32 + 1 * (y 1).val = (y 1).val; omega

/-- An entry of the result array is in the output window's block at point `t` iff each coordinate is in the block's range. -/
theorem mem_blk8 (t : Fin cfg0.N) (i : S10000x32.Idx) :
    i ∈ ((cfg0.win 8).blk t).view.set ↔ ∀ a : Fin 2, win0_8.index t a * S400x32.size a ≤ (i a).val ∧ (i a).val < win0_8.index t a * S400x32.size a + S400x32.size a := by
  show i ∈ ((View.whole main_v0).slice (win0_8.rect t)).set ↔ _
  rw [View.set_slice_whole, Rect.mem_set_unit]
  exact Iff.rfl

/-- Every entry of the result array lies in the block some point of phase 1 writes back: row `ρ` in the block of point `25 + ρ / 400`. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have key : ∀ j : S10000x32.Idx, ∃ t : Fin cfg0.N, (cfg0.win 8).flush t = true ∧ j ∈ ((cfg0.win 8).blk t).view.set := by
    intro j
    have hj0 : (j (0 : Fin 2)).val < 10000 := (j (0 : Fin 2)).isLt
    have hj1 : (j (1 : Fin 2)).val < 32 := (j (1 : Fin 2)).isLt
    have hN : cfg0.N = 50 := by decide
    obtain ⟨t, ht⟩ : ∃ t : Fin cfg0.N, t.val = 25 + (j (0 : Fin 2)).val / 400 := ⟨⟨25 + (j (0 : Fin 2)).val / 400, by rw [hN]; omega⟩, rfl⟩
    obtain ⟨e0, e1⟩ := idx8_facts t (by omega)
    refine ⟨t, (flush0_8 t).trans (decide_eq_true (by omega)), ?_⟩
    rw [mem_blk8]
    intro a
    match a with
    | ⟨0, _⟩ => show win0_8.index t (0 : Fin 2) * 400 ≤ (j (0 : Fin 2)).val ∧ (j (0 : Fin 2)).val < win0_8.index t (0 : Fin 2) * 400 + 400; omega
    | ⟨1, _⟩ => show win0_8.index t (1 : Fin 2) * 32 ≤ (j (1 : Fin 2)).val ∧ (j (1 : Fin 2)).val < win0_8.index t (1 : Fin 2) * 32 + 32; omega
  exact key i

end Cert.KernelIdeal.Hand

end
-- ==== Proof.KiFrame.lean ====
/-
  The frame of the kernel's program, for any float family: the proof data of its one pipeline, the body obligation at
  every point, and the run.

  The two scratch arrays are filled one slab of 400 rows per point of phase 0: after the points `0 … n − 1` the rows
  below `400 · n` of the first hold `G0` (slab `r` of it is `h_r · W2_1`, `h_r` the hidden layer on rows `400 r …`) and
  those of the second hold `G1` (slab `r` is `h_r · W2_0 + b2`); the other rows hold whatever they held. That is the
  region's invariant (`PhiT`). From point 25 on both arrays are `G0`, `G1` whole, and the body leaves in the output
  buffer the slab `outSlab r`: the row-wise log-softmax of `G1_r + adj_r · G0`.
-/
import proofs.«140956_g31370441130263_cont_sun_m_318_17_alg».proof.Proof.KiRunA
import proofs.«140956_g31370441130263_cont_sun_m_318_17_alg».proof.Proof.KiRunB
import proofs.«140956_g31370441130263_cont_sun_m_318_17_alg».proof.Proof.KiBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Layout (block Tiles)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch arrays are filled with, and what the output buffer is left at -/

/-- Slab `r` of `h · W2_1`: the body's first stored value at the point's blocks. -/
def gSlab (c : Dev nD) (r : Fin 25) : Vec F S400x32 .f32 :=
  k0_pay2 (block S400x10000 S10000x10000 0 25 r (Adj m c) (by decide)) (Xa m c) (block S400x128 S10000x128 0 25 r (Xa m c) (by decide))
    (W10a m c) (W11a m c) (B1r m c) (W21a m c)

/-- Slab `r` of `h · W2_0 + b2`: the body's second stored value at the point's blocks. -/
def hwSlab (c : Dev nD) (r : Fin 25) : Vec F S400x32 .f32 :=
  k0_pay3 (block S400x10000 S10000x10000 0 25 r (Adj m c) (by decide)) (Xa m c) (block S400x128 S10000x128 0 25 r (Xa m c) (by decide))
    (W10a m c) (W11a m c) (B1r m c) (W20a m c) (B2r m c)

/-- The first scratch array once phase 0 is over: the slabs `gSlab r` one under the other. -/
def G0 (c : Dev nD) : Vec F S10000x32 .f32 := fun y => gSlab m c (slabIdx y) (slabLoc y)
/-- The second: the slabs `hwSlab r`. -/
def G1 (c : Dev nD) : Vec F S10000x32 .f32 := fun y => hwSlab m c (slabIdx y) (slabLoc y)

theorem block_G0 (c : Dev nD) (r : Fin 25) : block S400x32 S10000x32 0 25 r (G0 m c) (by decide) = gSlab m c r := by
  funext x
  show gSlab m c (slabIdx _) (slabLoc _) = _
  rw [(slab_of_block r x).1, (slab_of_block r x).2]

theorem block_G1 (c : Dev nD) (r : Fin 25) : block S400x32 S10000x32 0 25 r (G1 m c) (by decide) = hwSlab m c r := by
  funext x
  show hwSlab m c (slabIdx _) (slabLoc _) = _
  rw [(slab_of_block r x).1, (slab_of_block r x).2]

/-- What a point of phase 1 leaves in the output buffer: the log-softmax of rows `400 r …` of `G1 + adj · G0`. -/
def outSlab (c : Dev nD) (r : Fin 25) : Vec F S400x32 .f32 :=
  k0_pay4 (block S400x32 S10000x32 0 25 r (G1 m c) (by decide)) (block S400x10000 S10000x10000 0 25 r (Adj m c) (by decide)) (G0 m c)

/-! ## The invariant -/

/-- After the points below `n`: the rows below `400 · min n 25` of the two scratch arrays hold `G0`, `G1`. -/
def Inv (c : Dev nD) (n : ℕ) (s0 s1 : Vec F S10000x32 .f32) : Prop :=
  ∀ y : S10000x32.Idx, (y (0 : Fin 2)).val < 400 * min n 25 → s0 y = G0 m c y ∧ s1 y = G1 m c y

/-- The region's invariant before point `n`: the two scratch arrays at contents with `Inv`, the generator register at some state. -/
def PhiT (c : Dev nD) (n : ℕ) : sProp 𝕄 :=
  iprop(iprop(∃ s0 s1, ⌜Inv m c n s0 s1⌝ ∗ owns (c : Thread nD τ) scM0_0 fullShare s0 ∗ owns (c : Thread nD τ) scM0_1 fullShare s1) ∗ (∃ r, prngReg c r))

/-- A point of phase 0 extends the filled rows by its slab. -/
theorem inv_stepA (c : Dev nD) (t : Fin cfg0.N) (h0 : t.val < 25) (hc : cond0_0 (grid0.coords t))
    (s0 s1 : Vec F S10000x32 .f32) (hinv : Inv m c t.val s0 s1) :
    Inv m c (t.val + 1)
      (setRows (400 * (t.val % 25)) (k0_pay2 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 6 t)) s0)
      (setRows (400 * (t.val % 25)) (k0_pay3 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 5 t) (iblk m c 7 t)) s1) := by
  have e2 : k0_pay2 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 6 t)
      = gSlab m c (rb t) := by
    rw [ld_rows128 t hc, iblk0_eq, iblk1_eq, iblk2_eq, iblk3_eq, iblk4_eq, iblk6_eq]; rfl
  have e3 : k0_pay3 (iblk m c 0 t) (iblk m c 1 t) (View.ld (iblk m c 1 t : Vec F S10000x128 .f32) (Rect.unit (s := S10000x128) (k0_off1 (grid0.coords t)) S400x128.size (k0_off1_inb (grid0.coords t) hc))) (iblk m c 2 t) (iblk m c 3 t) (iblk m c 4 t) (iblk m c 5 t) (iblk m c 7 t)
      = hwSlab m c (rb t) := by
    rw [ld_rows128 t hc, iblk0_eq, iblk1_eq, iblk2_eq, iblk3_eq, iblk4_eq, iblk5_eq, iblk7_eq]; rfl
  rw [e2, e3]
  have hmod : t.val % 25 = t.val := Nat.mod_eq_of_lt h0
  intro y hy
  have hy' : (y (0 : Fin 2)).val < 400 * (t.val + 1) := by
    have : min (t.val + 1) 25 = t.val + 1 := Nat.min_eq_left (by omega)
    rw [this] at hy; exact hy
  by_cases hlt : (y (0 : Fin 2)).val < 400 * (t.val % 25)
  · rw [setRows_of_lt _ _ _ y hlt, setRows_of_lt _ _ _ y hlt]
    refine hinv y ?_
    have : min t.val 25 = t.val := Nat.min_eq_left (by omega)
    rw [this]; omega
  · have hidx : slabIdx y = rb t := Fin.ext (by
      show (y (0 : Fin 2)).val / 400 = t.val % 25
      omega)
    constructor
    · rw [apply_eq_block (setRows _ _ s0) y, hidx]
      rw [show (400 * (t.val % 25)) = 400 * (rb t).val from rfl, block_setRows]
      show _ = gSlab m c (slabIdx y) (slabLoc y)
      rw [hidx]
    · rw [apply_eq_block (setRows _ _ s1) y, hidx]
      rw [show (400 * (t.val % 25)) = 400 * (rb t).val from rfl, block_setRows]
      show _ = hwSlab m c (slabIdx y) (slabLoc y)
      rw [hidx]

/-- From point 25 on the two scratch arrays are `G0` and `G1`. -/
theorem inv_full (c : Dev nD) (n : ℕ) (hn : 25 ≤ n) (s0 s1 : Vec F S10000x32 .f32) (hinv : Inv m c n s0 s1) :
    s0 = G0 m c ∧ s1 = G1 m c := by
  have hmin : min n 25 = 25 := Nat.min_eq_right hn
  have hall : ∀ y : S10000x32.Idx, s0 y = G0 m c y ∧ s1 y = G1 m c y := fun y => hinv y (by
    rw [hmin]; exact (y (0 : Fin 2)).isLt)
  exact ⟨funext fun y => (hall y).1, funext fun y => (hall y).2⟩

/-- A point of phase 1 keeps them. -/
theorem inv_stepB (c : Dev nD) (n : ℕ) (hn : 25 ≤ n) (s0 s1 : Vec F S10000x32 .f32) (hinv : Inv m c n s0 s1) :
    Inv m c (n + 1) s0 s1 := by
  intro y hy
  refine hinv y ?_
  rw [Nat.min_eq_right hn]; rw [Nat.min_eq_right (by omega)] at hy; exact hy

/-- What a point of phase 1 stores is its output slab. -/
theorem out_stepB (c : Dev nD) (t : Fin cfg0.N) (h1 : 25 ≤ t.val) (hc : cond0_1 (grid0.coords t))
    (s0 s1 : Vec F S10000x32 .f32) (hinv : Inv m c t.val s0 s1) :
    k0_pay4 (View.ld s1 (Rect.unit (s := S10000x32) (k0_off3 (grid0.coords t)) S400x32.size (k0_off3_inb (grid0.coords t) hc))) (iblk m c 0 t) s0
      = outSlab m c (rb t) := by
  obtain ⟨rfl, rfl⟩ := inv_full m c t.val h1 s0 s1 hinv
  rw [iblk0_eq, ld_rows32 t hc]
  rfl

/-! ## The pipeline's proof data -/

/-- The proof data of the one pipeline on core `c`: the arrays as the region finds them; after the body each input's
    buffer at its block, the output's at the point's slab; the invariant `PhiT`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outSlab m c (rb t)
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outSlab m c (rb t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point: in phase 0 it extends the filled rows of the scratch arrays by the point's slab and hands the
    output buffer back untouched (the window is idle and not written back); in phase 1 it keeps the scratch arrays and
    leaves the point's output slab. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.castSucc = PhiT m c t.val from by dsimp only [dats]; simp only [Fin.coe_castSucc],
    show (dats m 0 c).Φ t.succ = PhiT m c (t.val + 1) from rfl]
  unfold PhiT
  have hN : t.val < 50 := lt_of_lt_of_eq t.isLt (show cfg0.N = 50 from N_0)
  by_cases h0 : t.val < 25
  · have hc0 : cond0_0 (grid0.coords t) := (hcond0_0 t).mpr h0
    have hc1 : ¬cond0_1 (grid0.coords t) := fun h => absurd ((hcond0_1 t).mp h) (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t ((idle0_8 t).trans (decide_eq_true h0)) ((flush0_8 t).trans (decide_eq_false (by omega)))]
    iintro ⟨⟨⟨%s0, %s1, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ hc0 hc1 (400 * (t.val % 25)) (off2_eq t) (iblk m c 0 t) (iblk m c 1 t) (iblk m c 2 t) (iblk m c 3 t) (iblk m c 4 t) (iblk m c 5 t) (iblk m c 6 t) (iblk m c 7 t) ((dats m 0 c).before 8 t d8) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · iexists _, _
        isplitr; · ipureintro; exact inv_stepA m c t h0 hc0 s0 s1 hinv
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : 25 ≤ t.val := by omega
    have hc0 : ¬cond0_0 (grid0.coords t) := fun h => h0 ((hcond0_0 t).mp h)
    have hc1 : cond0_1 (grid0.coords t) := (hcond0_1 t).mpr h1
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [(idle0_8 t).trans (decide_eq_false h0)], after0_8]
    iintro ⟨⟨⟨%s0, %s1, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) ((dats m 0 c).before 8 t d8) s0 s1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [out_stepB m c t h1 hc1 s0 s1 hinv]
    isplitl [HS0 HS1 Hg]
    · isplitl [HS0 HS1]
      · iexists _, _
        isplitr; · ipureintro; exact inv_stepB m c t.val h1 s0 s1 hinv
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is claimed yet. -/
theorem hin (c : Dev nD) : Pipeline.ΦA spec0 c ⊢ (dats m 0 c).Φ 0 := by
  rw [show (dats m 0 c).Φ 0 = PhiT m c 0 from rfl, PhiA0_eq]
  unfold PhiT
  iintro ⟨⟨⟨%d0, HS0⟩, ⟨%d1, HS1⟩⟩, Hg⟩
  isplitl [HS0 HS1]
  · iexists d0, d1
    isplitr; · ipureintro; exact fun y hy => absurd hy (by simp)
    isplitl [HS0]; · iexact HS0
    iexact HS1
  iexact Hg

/-- After the last point the invariant gives the class's back: what the scratch arrays hold is forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA0_eq]
  unfold PhiT
  iintro ⟨⟨%s0, %s1, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from the
    proof data, every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  The two-layer Chebyshev network as functions of its argument arrays, for any float family, spelt with the reference's
  own host operations.

  `hidden` is the first layer, `relu (x · W1_0 + (adj · x) · W1_1 + b1)`. The reference's logits are
  `(h · W2_0 + (adj · h) · W2_1) + b2` (`logitsRef`); the kernel forms `g = h · W2_1` and `hw = h · W2_0 + b2` row slab by
  row slab and then `hw + adj · g` (`logitsKer`). The result is the row-wise log-softmax of the logits (`logSoftmax`):
  `(o − max) − log Σ exp (o − max)` along each row, the maximum started from −∞.
-/
import proofs.«140956_g31370441130263_cont_sun_m_318_17_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic

variable {F : FTy → Type} [FloatOps F]

/-- The dimension numbers of `[10000, 10000] · [10000, 32]`: rows by contraction, contraction by columns. -/
abbrev dotAdj32 : DotDims S10000x10000 S10000x32 S10000x32 := DotDims.plain 10000 10000 32

section
variable (x : (⟨S10000x128, .f32⟩ : BufTy).Contents (Elt F)) (adj : (⟨S10000x10000, .f32⟩ : BufTy).Contents (Elt F))
  (W10 W11 : (⟨S128x128, .f32⟩ : BufTy).Contents (Elt F)) (b1 : (⟨S128, .f32⟩ : BufTy).Contents (Elt F))
  (W20 W21 : (⟨S128x32, .f32⟩ : BufTy).Contents (Elt F)) (b2 : (⟨S32, .f32⟩ : BufTy).Contents (Elt F))

/-- The first layer: `relu (x · W1_0 + (adj · x) · W1_1 + b1)`. -/
def hidden : (⟨S10000x128, .f32⟩ : BufTy).Contents (Elt F) :=
  maximumf (addf (addf (Host.dotGeneral dot_S10000x128_S128x128_S10000x128_1_0_0_1_n_n none x W10) (Host.dotGeneral dot_S10000x128_S128x128_S10000x128_1_0_0_1_n_n none (Host.dotGeneral dot_S10000x10000_S10000x128_S10000x128_1_0_0_1_n_n none adj x) W11)) (broadcastInDim S10000x128 ![0, 1] bcast_S1x128_S10000x128_0_1 (broadcastInDim S1x128 ![1] bcast_S128_S1x128_1 b1))) (broadcastInDim S10000x128 ![] bcast_S_S10000x128 (constant S_ .f32 0x00000000#32))

/-- The second layer's bias row under every row. -/
def bias2 : (⟨S10000x32, .f32⟩ : BufTy).Contents (Elt F) :=
  broadcastInDim S10000x32 ![0, 1] bcast_S1x32_S10000x32_0_1 (broadcastInDim S1x32 ![1] bcast_S32_S1x32_1 b2)

/-- `g = h · W2_1`. -/
def projG (h : (⟨S10000x128, .f32⟩ : BufTy).Contents (Elt F)) : (⟨S10000x32, .f32⟩ : BufTy).Contents (Elt F) :=
  Host.dotGeneral dot_S10000x128_S128x32_S10000x32_1_0_0_1_n_n none h W21

/-- `hw = h · W2_0 + b2`. -/
def projHW (h : (⟨S10000x128, .f32⟩ : BufTy).Contents (Elt F)) : (⟨S10000x32, .f32⟩ : BufTy).Contents (Elt F) :=
  addf (Host.dotGeneral dot_S10000x128_S128x32_S10000x32_1_0_0_1_n_n none h W20) (bias2 b2)

/-- The logits as the kernel forms them: `hw + adj · g`. -/
def logitsKer (h : (⟨S10000x128, .f32⟩ : BufTy).Contents (Elt F)) : (⟨S10000x32, .f32⟩ : BufTy).Contents (Elt F) :=
  addf (projHW W20 b2 h) (Host.dotGeneral dotAdj32 none adj (projG W21 h))

/-- The logits as the reference forms them: `(h · W2_0 + (adj · h) · W2_1) + b2`. -/
def logitsRef (h : (⟨S10000x128, .f32⟩ : BufTy).Contents (Elt F)) : (⟨S10000x32, .f32⟩ : BufTy).Contents (Elt F) :=
  addf (addf (Host.dotGeneral dot_S10000x128_S128x32_S10000x32_1_0_0_1_n_n none h W20) (Host.dotGeneral dot_S10000x128_S128x32_S10000x32_1_0_0_1_n_n none (Host.dotGeneral dot_S10000x10000_S10000x128_S10000x128_1_0_0_1_n_n none adj h) W21)) (bias2 b2)
end

/-- Every entry of an array of extended reals is a real number. -/
def IsReal {S : Shape} (v : S.Idx → EReal) : Prop := ∀ i, ∃ r : ℝ, v i = (r : EReal)

/-- Each row's maximum (started from −∞), laid under every column. -/
def rowMax (o : (⟨S10000x32, .f32⟩ : BufTy).Contents (Elt F)) : (⟨S10000x32, .f32⟩ : BufTy).Contents (Elt F) :=
  broadcastInDim S10000x32 ![0, 1] bcast_S10000x1_S10000x32_0_1 (broadcastInDim S10000x1 ![0] bcast_S10000_S10000x1_0 (maximumf (broadcastInDim S10000 ![] bcast_S_S10000 (constant S_ .f32 0xFF800000#32)) (Host.reduce FloatOps.maximumf o (constant S_ .f32 0xFF800000#32) reducesTo_S10000x32_S10000_d1 h_S_)))

/-- The row-wise log-softmax: `(o − max) − log Σ exp (o − max)`. -/
def logSoftmax (o : (⟨S10000x32, .f32⟩ : BufTy).Contents (Elt F)) : (⟨S10000x32, .f32⟩ : BufTy).Contents (Elt F) :=
  subf (subf o (rowMax o)) (broadcastInDim S10000x32 ![0, 1] bcast_S10000x1_S10000x32_0_1 (Host.log (broadcastInDim S10000x1 ![0] bcast_S10000_S10000x1_0 (Host.reduceAdd (Host.exp (subf o (rowMax o))) (constant S_ .f32 0x00000000#32) reducesTo_S10000x32_S10000_d1 h_S_))))

end Cert.Spec

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«140956_g31370441130263_cont_sun_m_318_17_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayRows.lean ====
/-
  The two values a point of phase 0 stores, as row blocks of whole-array terms, on the extended reals.

  Every operation of the body works row by row, so on the adjacency slab and the feature slab of rows `400 r …` it computes
  rows `400 r …` of what the same operations compute on the whole arrays: the hidden layer `h`, then `h · W2_1` and
  `h · W2_0 + b2`.
-/
import proofs.«140956_g31370441130263_cont_sun_m_318_17_alg».proof.Proof.Gen.KernelIdeal.Skeleton
import proofs.«140956_g31370441130263_cont_sun_m_318_17_alg».proof.Proof.Spec
import proofs.«140956_g31370441130263_cont_sun_m_318_17_alg».proof.Proof.LibRowBlock
import proofs.«140956_g31370441130263_cont_sun_m_318_17_alg».proof.Proof.LibKeepdims

noncomputable section

open scoped BigOperators

namespace Cert.PayRows

open Cert.KernelIdeal Cert.KernelIdeal.Facts₀ Cert.KernelIdeal.Facts Cert.KernelIdeal.Gen
open Idealize.ShloMosaic Idealize.ShloMosaic.ValueIdx Idealize.ShloMosaic.Layout

/-- The hidden layer on a slab: rows `400 r …` of `relu (x · W1_0 + (adj · x) · W1_1 + b1)`. Each product is
    row-wise in its left operand, the bias row and the zero are the same under every row, and the sum and the
    maximum are pointwise. -/
theorem pay1_rows (r : Fin 25) (adj : FVec Ideal S10000x10000 .f32) (x : FVec Ideal S10000x128 .f32) (W10 W11 : FVec Ideal S128x128 .f32) (b1 : FVec Ideal S128 .f32) :
    k0_pay1 (F := Ideal) (block S400x10000 S10000x10000 0 25 r adj (by decide)) x (block S400x128 S10000x128 0 25 r x (by decide)) W10 W11
        (shapeCast S1x128 b1 Facts₀.shapeCasts_S128_S1x128)
      = block S400x128 S10000x128 0 25 r (Cert.Spec.hidden (F := Ideal) x adj W10 W11 b1) (by decide) := by
  have hT : Tiles S400x128 S10000x128 0 25 := by decide
  have hA : Tiles S400x10000 S10000x10000 0 25 := by decide
  unfold k0_pay1 Cert.Spec.hidden
  dsimp only
  -- the bias row's identity cast goes; then `adj · x`, `x · W1_0`, `(adj · x) · W1_1` on the slab are slabs of the whole products
  rw [shapeCast_self,
    Cert.RowBlock.dot_rows dot_S400x10000_S10000x128_S400x128_1_0_0_1_n_n rfl
      Cert.ReferenceIdeal.dot_S10000x10000_S10000x128_S10000x128_1_0_0_1_n_n rfl hA hT none none r adj x,
    Cert.RowBlock.dot_rows dot_S400x128_S128x128_S400x128_1_0_0_1_n_n rfl
      Cert.ReferenceIdeal.dot_S10000x128_S128x128_S10000x128_1_0_0_1_n_n rfl hT hT none none r x W10,
    Cert.RowBlock.dot_rows dot_S400x128_S128x128_S400x128_1_0_0_1_n_n rfl
      Cert.ReferenceIdeal.dot_S10000x128_S128x128_S10000x128_1_0_0_1_n_n rfl hT hT none none r _ W11,
    Cert.RowBlock.addf_rows,
    Cert.RowBlock.bias_rows hT r Facts₀.shapeCasts_S128_S1x128 Gen.broadcasts_S1x128_S400x128
      Cert.ReferenceIdeal.Facts₀.bcast_S128_S1x128_1 Cert.ReferenceIdeal.Facts₀.bcast_S1x128_S10000x128_0_1 b1,
    Cert.RowBlock.addf_rows]
  -- the zero under the maximum is the slab of the whole zero array; the maximum is pointwise
  exact congrArg (maximumf _) (Cert.RowBlock.splat_rows hT r Cert.ReferenceIdeal.Facts₀.bcast_S_S10000x128 0x00000000#32)

/-- The first stored value is rows `400 r …` of `h · W2_1`. -/
theorem pay2_rows (r : Fin 25) (adj : FVec Ideal S10000x10000 .f32) (x : FVec Ideal S10000x128 .f32) (W10 W11 : FVec Ideal S128x128 .f32) (b1 : FVec Ideal S128 .f32)
    (W21 : FVec Ideal S128x32 .f32) :
    k0_pay2 (F := Ideal) (block S400x10000 S10000x10000 0 25 r adj (by decide)) x (block S400x128 S10000x128 0 25 r x (by decide)) W10 W11
        (shapeCast S1x128 b1 Facts₀.shapeCasts_S128_S1x128) W21
      = block S400x32 S10000x32 0 25 r (Cert.Spec.projG (F := Ideal) W21 (Cert.Spec.hidden (F := Ideal) x adj W10 W11 b1)) (by decide) := by
  have hT : Tiles S400x128 S10000x128 0 25 := by decide
  have hO : Tiles S400x32 S10000x32 0 25 := by decide
  unfold k0_pay2 Cert.Spec.projG
  dsimp only
  -- the closing cast is the identity; the slab of `h` times `W2_1` is the slab of `h · W2_1`
  rw [shapeCast_self, pay1_rows,
    Cert.RowBlock.dot_rows dot_S400x128_S128x32_S400x32_1_0_0_1_n_n rfl
      Cert.ReferenceIdeal.dot_S10000x128_S128x32_S10000x32_1_0_0_1_n_n rfl hT hO none none r _ W21]

/-- The second stored value is rows `400 r …` of `h · W2_0 + b2`. -/
theorem pay3_rows (r : Fin 25) (adj : FVec Ideal S10000x10000 .f32) (x : FVec Ideal S10000x128 .f32) (W10 W11 : FVec Ideal S128x128 .f32) (b1 : FVec Ideal S128 .f32)
    (W20 : FVec Ideal S128x32 .f32) (b2 : FVec Ideal S32 .f32) :
    k0_pay3 (F := Ideal) (block S400x10000 S10000x10000 0 25 r adj (by decide)) x (block S400x128 S10000x128 0 25 r x (by decide)) W10 W11
        (shapeCast S1x128 b1 Facts₀.shapeCasts_S128_S1x128) W20 (shapeCast S1x32 b2 Facts₀.shapeCasts_S32_S1x32)
      = block S400x32 S10000x32 0 25 r (Cert.Spec.projHW (F := Ideal) W20 b2 (Cert.Spec.hidden (F := Ideal) x adj W10 W11 b1)) (by decide) := by
  have hT : Tiles S400x128 S10000x128 0 25 := by decide
  have hO : Tiles S400x32 S10000x32 0 25 := by decide
  unfold k0_pay3 Cert.Spec.projHW Cert.Spec.bias2
  dsimp only
  -- both identity casts go; the slab of `h` times `W2_0` is the slab of `h · W2_0`, the bias row is the same under
  -- every row, and the sum is pointwise
  rw [shapeCast_self, shapeCast_self, pay1_rows,
    Cert.RowBlock.dot_rows dot_S400x128_S128x32_S400x32_1_0_0_1_n_n rfl
      Cert.ReferenceIdeal.dot_S10000x128_S128x32_S10000x32_1_0_0_1_n_n rfl hT hO none none r _ W20,
    Cert.RowBlock.bias_rows hO r Facts₀.shapeCasts_S32_S1x32 Gen.broadcasts_S1x32_S400x32
      Cert.ReferenceIdeal.Facts₀.bcast_S32_S1x32_1 Cert.ReferenceIdeal.Facts₀.bcast_S1x32_S10000x32_0_1 b2,
    Cert.RowBlock.addf_rows]

end Cert.PayRows

end
-- ==== Proof.LsmRows.lean ====
/-
  The value a point of phase 1 stores, as a row block of a whole-array term, on the extended reals.

  On rows `400 r …` of `hw` and of `adj` the body forms `o = hw_r + adj_r · g`, each row's maximum `M` (started from −∞), and
  `(o − M) − log Σ exp (o − M)` along the row; row by row that is the reference's log-softmax of `hw + adj · g`, whose
  maximum is taken once more against −∞, which changes nothing.
-/
import proofs.«140956_g31370441130263_cont_sun_m_318_17_alg».proof.Proof.Gen.KernelIdeal.Skeleton
import proofs.«140956_g31370441130263_cont_sun_m_318_17_alg».proof.Proof.Spec
import proofs.«140956_g31370441130263_cont_sun_m_318_17_alg».proof.Proof.LibRowBlock
import proofs.«140956_g31370441130263_cont_sun_m_318_17_alg».proof.Proof.LibKeepdims
import Idealize.ShloMosaic.Lib.IdealHost

noncomputable section

open scoped BigOperators

namespace Cert.PayRows

open Cert.KernelIdeal Cert.KernelIdeal.Facts₀ Cert.KernelIdeal.Facts Cert.KernelIdeal.Gen
open Idealize.ShloMosaic Idealize.ShloMosaic.ValueIdx Idealize.ShloMosaic.Layout

namespace Lsm

/-- A row's maximum, started from −∞. -/
def rowM {N : ℕ} (f : Fin N → EReal) : EReal := (Finset.univ : Finset (Fin N)).fold max ⊥ f

/-- A row's log-softmax at column `q`: `(f q − max f) − log Σ exp (f k − max f)`. -/
def rowLsm {N : ℕ} (f : Fin N → EReal) (q : Fin N) : EReal :=
  (f q - rowM f) - Ideal.log (∑ k : Fin N, Ideal.exp (f k - rowM f))

/-- The word `0xFF800000` is −∞. -/
theorem ofBits_negInf : Ideal.ofBits .f32 0xFF800000#32 = ⊥ := by simp [Ideal.ofBits, Ideal.ieee]

/-- The row index `p` with column `k` put back is `(p, k)`. -/
theorem lift_row {R N : ℕ} (h : (⟨2, ![R, N]⟩ : Shape).Reduces [1] (⟨1, ![R]⟩ : Shape)) (p : Fin R)
    (k : Fin ((⟨2, ![R, N]⟩ : Shape).size 1)) : h.lift (ix1 p) k = ix2 p (⟨k.val, k.isLt⟩ : Fin N) := by
  funext c; apply Fin.ext
  fin_cases c <;> rfl

/-- The body's maximum over a row, from −∞, is that row's maximum. -/
theorem ker_max {R N : ℕ} (B : FVec Ideal ⟨2, ![R, N]⟩ .f32) (h : (⟨2, ![R, N]⟩ : Shape).Reduces [1] (⟨1, ![R]⟩ : Shape))
    (hφ : FKind.Formats .f32) (hacc : (0xFF800000#32 : BitVec 32) = FKind.maximumf.neutral .f32 hφ) (p : Fin R) :
    multiReduction .maximumf [1] ⟨1, ![R]⟩ B 0xFF800000#32 h hφ hacc (ix1 p) = rowM (fun k : Fin N => B (ix2 p k)) := by
  rw [Ideal.multiReduction_maximumf_single]
  show Finset.fold max (Ideal.ofBits .f32 0xFF800000#32) (B ∘ h.lift (ix1 p)) (Finset.univ : Finset (Fin N)) = _
  rw [ofBits_negInf]
  have hf : (B ∘ h.lift (ix1 p)) = fun k : Fin N => B (ix2 p k) := funext fun k => congrArg B (lift_row h p k)
  rw [hf]; rfl

/-- The body's sum over a row is the sum of the row's entries. -/
theorem ker_sum {R N : ℕ} (E : FVec Ideal ⟨2, ![R, N]⟩ .f32) (h : (⟨2, ![R, N]⟩ : Shape).Reduces [1] (⟨1, ![R]⟩ : Shape))
    (hφ : FKind.Formats .f32) (hacc : (0x00000000#32 : BitVec 32) = FKind.add.neutral .f32 hφ) (p : Fin R) :
    multiReduction .add [1] ⟨1, ![R]⟩ E 0x00000000#32 h hφ hacc (ix1 p) = ∑ k : Fin N, E (ix2 p k) := by
  rw [Ideal.multiReduction_add_single]
  show ∑ k : Fin N, E (h.lift (ix1 p) k) = _
  exact Finset.sum_congr rfl fun k _ => congrArg E (lift_row h p k)

/-- A column laid under every column reads, at `(P, q)`, the column's entry in row `P`. -/
theorem bcast_col_apply {α : Type} {M N : ℕ} (w : (⟨2, ![M, 1]⟩ : Shape).Idx → α)
    (h : (⟨2, ![M, 1]⟩ : Shape).BroadcastsInDim ⟨2, ![M, N]⟩ (![0, 1] : Fin 2 → Fin 2)) (P : Fin M) (q : Fin N) :
    broadcastInDim ⟨2, ![M, N]⟩ ![0, 1] h w (ix2 P q) = w (ix2 P (0 : Fin 1)) := by
  refine broadcastInDim_apply ![0, 1] h w (ix2 P q) (ix2 P (0 : Fin 1)) fun a => ?_
  match a with
  | ⟨0, _⟩ =>
    show P.val = if M = 1 then 0 else P.val
    split
    · have := P.isLt; omega
    · rfl
  | ⟨1, _⟩ => rfl

/-- A vector stood up as a column reads, at `(P, u)`, the vector's entry `P`. -/
theorem bcast_vec_col_apply {α : Type} {M : ℕ} (v : (⟨1, ![M]⟩ : Shape).Idx → α)
    (h : (⟨1, ![M]⟩ : Shape).BroadcastsInDim ⟨2, ![M, 1]⟩ (![0] : Fin 1 → Fin 2)) (P : Fin M) (u : Fin 1) :
    broadcastInDim ⟨2, ![M, 1]⟩ ![0] h v (ix2 P u) = v (ix1 P) := by
  refine broadcastInDim_apply ![0] h v (ix2 P u) (ix1 P) fun a => ?_
  match a with
  | ⟨0, _⟩ =>
    show P.val = if M = 1 then 0 else P.val
    split
    · have := P.isLt; omega
    · rfl

/-- The body's value at `(p, q)` is the log-softmax of row `p` of its logits, at column `q`. -/
theorem pay4_apply (a : FVec Ideal S400x32 .f32) (b : FVec Ideal S400x10000 .f32) (g : FVec Ideal S10000x32 .f32)
    (p : Fin 400) (q : Fin 32) :
    k0_pay4 (F := Ideal) a b g (ix2 p q)
      = rowLsm (fun k : Fin 32 => addf a (matmul dot_S400x10000_S10000x32_S400x32_1_0_0_1_n_n none b g (constant S400x32 .f32 0x00000000#32)) (ix2 p k)) q := by
  unfold k0_pay4
  dsimp only
  generalize addf a (matmul dot_S400x10000_S10000x32_S400x32_1_0_0_1_n_n none b g (constant S400x32 .f32 0x00000000#32)) = B
  have hX := ker_max B Gen.reduces_S400x32_S400 (.inl rfl) rfl p
  have hS := fun E => ker_sum E Gen.reduces_S400x32_S400 (.inl rfl) rfl p
  rw [subf_apply, subf_apply, Cert.Keepdims.broadcastTo_a1_ab_apply, Cert.Keepdims.broadcastTo_a1_ab_apply,
    Cert.Keepdims.shapeCast_a_a1_apply, hX]
  show _ - Ideal.log (shapeCast S400x1 _ _ (ix2 p (0 : Fin 1))) = _
  rw [Cert.Keepdims.shapeCast_a_a1_apply, hS]
  unfold rowLsm
  refine congrArg (fun t => _ - Ideal.log t) (Finset.sum_congr rfl fun k _ => ?_)
  show Ideal.exp (B (ix2 p k) - broadcastTo S400x32 _ _ (ix2 p k)) = _
  rw [Cert.Keepdims.broadcastTo_a1_ab_apply, Cert.Keepdims.shapeCast_a_a1_apply, hX]

/-- The host's logarithm and exponential at an index are the extended reals' of the entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's row maximum, taken once more against −∞, is the row's maximum. -/
theorem ref_rowMax_apply (O : FVec Ideal ⟨2, ![10000, 32]⟩ .f32) (P : Fin 10000) (q : Fin 32) :
    Cert.Spec.rowMax (F := Ideal) O (ix2 P q) = rowM (fun k : Fin 32 => O (ix2 P k)) := by
  have hR : (⟨2, ![10000, 32]⟩ : Shape).Reduces [1] (⟨1, ![10000]⟩ : Shape) := by decide
  unfold Cert.Spec.rowMax
  rw [bcast_col_apply, bcast_vec_col_apply, maximumf_apply, Host.reduce_eq_fold_single FloatOps.maximumf O _ _ hR _]
  show max (Ideal.ofBits .f32 0xFF800000#32) (Finset.fold max (Ideal.ofBits .f32 0xFF800000#32) (O ∘ hR.lift (ix1 P)) (Finset.univ : Finset (Fin 32))) = _
  rw [ofBits_negInf, max_bot_left]
  have hf : (O ∘ hR.lift (ix1 P)) = fun k : Fin 32 => O (ix2 P k) := funext fun k => congrArg O (lift_row hR P k)
  rw [hf]; rfl

/-- The reference's log-softmax at `(P, q)` is the log-softmax of row `P`, at column `q`. -/
theorem ref_lsm_apply (O : FVec Ideal ⟨2, ![10000, 32]⟩ .f32) (P : Fin 10000) (q : Fin 32) :
    Cert.Spec.logSoftmax (F := Ideal) O (ix2 P q) = rowLsm (fun k : Fin 32 => O (ix2 P k)) q := by
  have hR : (⟨2, ![10000, 32]⟩ : Shape).Reduces [1] (⟨1, ![10000]⟩ : Shape) := by decide
  unfold Cert.Spec.logSoftmax
  rw [subf_apply, subf_apply, ref_rowMax_apply, bcast_col_apply, hostLog_apply, bcast_vec_col_apply, hostReduceAdd_apply,
    Ideal.hostReduceAdd_single _ hR, constant_apply, Ideal.ofBits_zero_f32, zero_add]
  unfold rowLsm
  refine congrArg (fun t => _ - Ideal.log t) (Finset.sum_congr rfl fun k _ => ?_)
  rw [lift_row hR P k, hostExp_apply, subf_apply, ref_rowMax_apply]
  rfl

end Lsm

open Lsm

/-- The stored value is rows `400 r …` of the row-wise log-softmax of `hw + adj · g`. -/
theorem pay4_rows (r : Fin 25) (adj : FVec Ideal S10000x10000 .f32) (g hw : FVec Ideal S10000x32 .f32) :
    k0_pay4 (F := Ideal) (block S400x32 S10000x32 0 25 r hw (by decide)) (block S400x10000 S10000x10000 0 25 r adj (by decide)) g
      = block S400x32 S10000x32 0 25 r (Cert.Spec.logSoftmax (F := Ideal) (addf hw (Host.dotGeneral Cert.Spec.dotAdj32 none adj g))) (by decide) := by
  have hT : Tiles S400x32 S10000x32 0 25 := by decide
  have hTK : Tiles S400x10000 S10000x10000 0 25 := by decide
  -- the slab's product is rows `400 r …` of the whole product, so the slab's logits are those rows of the whole logits
  have hd := Cert.RowBlock.dot_rows (φ₁ := .f32) (φ₂ := .f32) dot_S400x10000_S10000x32_S400x32_1_0_0_1_n_n rfl
    Cert.Spec.dotAdj32 rfl hTK hT none none r adj g
  funext y
  obtain ⟨p, q, rfl⟩ : ∃ (p : Fin 400) (q : Fin 32), y = ix2 p q := ⟨y 0, y 1, eq_ix2 y⟩
  -- entry `(p, k)` of the slab lies in row `400 r + p` of the whole array, whatever the column
  have e : ∀ k : Fin 32, hT.idx r (ix2 p k) = @ix2 10000 32 (hT.idx r (ix2 p q) 0) k := by
    intro k
    funext c
    match c with
    | ⟨0, _⟩ => exact Fin.ext rfl
    | ⟨1, _⟩ => exact Fin.ext rfl
  have hL := ref_lsm_apply (addf hw (Host.dotGeneral Cert.Spec.dotAdj32 none adj g)) (hT.idx r (ix2 p q) 0) q
  rw [pay4_apply, hd, Cert.RowBlock.addf_rows, block_apply]
  show _ = Cert.Spec.logSoftmax (F := Ideal) _ (hT.idx r (ix2 p q))
  rw [e q, hL]
  -- both sides are the log-softmax of one row: the rows agree entry by entry
  refine congrArg (fun f => rowLsm f q) (funext fun k => ?_)
  rw [block_apply, e k]

end Cert.PayRows

end
-- ==== Proof.KernelValue.lean ====
/-
  What the idealized kernel computes: its result array after the run is the row-wise log-softmax of `hw + adj · g` over the
  hidden layer, as one function of the argument arrays.

  The arrays the region finds are the launch's (the two bias rows cast to `[1, n]`). At the extended reals the slabs the
  body stores in phase 0 are row blocks of `g = h · W2_1` and `hw = h · W2_0 + b2`, so the two scratch arrays end phase 0
  holding `g` and `hw`; the slab a point of phase 1 leaves in the output buffer is then the same row block of the result,
  and the 25 blocks written back tile the result array.
-/
import proofs.«140956_g31370441130263_cont_sun_m_318_17_alg».proof.Proof.KiFrame
import proofs.«140956_g31370441130263_cont_sun_m_318_17_alg».proof.Proof.PayRows
import proofs.«140956_g31370441130263_cont_sun_m_318_17_alg».proof.Proof.LsmRows
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.Layout (block Tiles)

variable (m : (ℓ : Loc nD τ sig) → Buf (Elt Ideal) ℓ) (ρ : Dev nD → PrngReg)

/-! ## The argument arrays, and the arrays the region finds -/

abbrev ax (c : Dev nD) : FVec Ideal S10000x128 .f32 := m ((c.tc : Thread nD τ).loc main_arg0)
abbrev aadj (c : Dev nD) : FVec Ideal S10000x10000 .f32 := m ((c.tc : Thread nD τ).loc main_arg1)
abbrev aW10 (c : Dev nD) : FVec Ideal S128x128 .f32 := m ((c.tc : Thread nD τ).loc main_arg2)
abbrev aW11 (c : Dev nD) : FVec Ideal S128x128 .f32 := m ((c.tc : Thread nD τ).loc main_arg3)
abbrev ab1 (c : Dev nD) : FVec Ideal S128 .f32 := m ((c.tc : Thread nD τ).loc main_arg4)
abbrev aW20 (c : Dev nD) : FVec Ideal S128x32 .f32 := m ((c.tc : Thread nD τ).loc main_arg5)
abbrev aW21 (c : Dev nD) : FVec Ideal S128x32 .f32 := m ((c.tc : Thread nD τ).loc main_arg6)
abbrev ab2 (c : Dev nD) : FVec Ideal S32 .f32 := m ((c.tc : Thread nD τ).loc main_arg7)

theorem Xa_eq (c : Dev nD) : Xa m c = ax m c := V_main_arg0 m c
theorem Adj_eq (c : Dev nD) : Adj m c = aadj m c := V_main_arg1 m c
theorem W10a_eq (c : Dev nD) : W10a m c = aW10 m c := V_main_arg2 m c
theorem W11a_eq (c : Dev nD) : W11a m c = aW11 m c := V_main_arg3 m c
theorem W20a_eq (c : Dev nD) : W20a m c = aW20 m c := V_main_arg5 m c
theorem W21a_eq (c : Dev nD) : W21a m c = aW21 m c := V_main_arg6 m c

/-- The first bias as the region finds it: the vector cast to one row. -/
theorem B1r_eq (c : Dev nD) : B1r m c = shapeCast S1x128 (ab1 m c) Facts₀.shapeCasts_S128_S1x128 := by
  show (V m c main_call0_v0 : S1x128.Idx → EReal) = _
  dsimp only [Gen.V, Gen.hostOps0]; after_results; rfl

/-- The second bias likewise. -/
theorem B2r_eq (c : Dev nD) : B2r m c = shapeCast S1x32 (ab2 m c) Facts₀.shapeCasts_S32_S1x32 := by
  show (V m c main_call0_v1 : S1x32.Idx → EReal) = _
  dsimp only [Gen.V, Gen.hostOps0]; after_results; rfl

/-! ## The scratch arrays and the output slabs, as whole-array terms -/

/-- The hidden layer of the argument arrays. -/
abbrev hid (c : Dev nD) : FVec Ideal S10000x128 .f32 :=
  Cert.Spec.hidden (F := Ideal) (ax m c) (aadj m c) (aW10 m c) (aW11 m c) (ab1 m c)

/-- The kernel's result: the row-wise log-softmax of `hw + adj · g`. -/
def OUT (c : Dev nD) : FVec Ideal S10000x32 .f32 :=
  Cert.Spec.logSoftmax (F := Ideal) (Cert.Spec.logitsKer (F := Ideal) (aadj m c) (aW20 m c) (aW21 m c) (ab2 m c) (hid m c))

theorem gSlab_eq (c : Dev nD) (r : Fin 25) :
    gSlab m c r = block S400x32 S10000x32 0 25 r (Cert.Spec.projG (F := Ideal) (aW21 m c) (hid m c)) (by decide) := by
  unfold gSlab
  rw [Adj_eq, Xa_eq, W10a_eq, W11a_eq, B1r_eq, W21a_eq]
  exact Cert.PayRows.pay2_rows r _ _ _ _ _ _

theorem hwSlab_eq (c : Dev nD) (r : Fin 25) :
    hwSlab m c r = block S400x32 S10000x32 0 25 r (Cert.Spec.projHW (F := Ideal) (aW20 m c) (ab2 m c) (hid m c)) (by decide) := by
  unfold hwSlab
  rw [Adj_eq, Xa_eq, W10a_eq, W11a_eq, B1r_eq, W20a_eq, B2r_eq]
  exact Cert.PayRows.pay3_rows r _ _ _ _ _ _ _

/-- The first scratch array ends phase 0 at `g = h · W2_1`. -/
theorem G0_eq (c : Dev nD) : G0 m c = Cert.Spec.projG (F := Ideal) (aW21 m c) (hid m c) := by
  funext y
  show gSlab m c (slabIdx y) (slabLoc y) = _
  rw [gSlab_eq]
  exact (apply_eq_block _ y).symm

/-- The second at `hw = h · W2_0 + b2`. -/
theorem G1_eq (c : Dev nD) : G1 m c = Cert.Spec.projHW (F := Ideal) (aW20 m c) (ab2 m c) (hid m c) := by
  funext y
  show hwSlab m c (slabIdx y) (slabLoc y) = _
  rw [hwSlab_eq]
  exact (apply_eq_block _ y).symm

/-- What a point of phase 1 leaves in the output buffer is its row block of the result. -/
theorem outSlab_eq (c : Dev nD) (r : Fin 25) : outSlab m c r = block S400x32 S10000x32 0 25 r (OUT m c) (by decide) := by
  unfold outSlab
  rw [G0_eq, G1_eq, Adj_eq]
  exact Cert.PayRows.pay4_rows r _ _ _

/-! ## The result array after the run -/

/-- What a write-back writes is its block of the result. -/
theorem flushed_eq (c : Dev nD) (t : Fin cfg0.N) (hf : (cfg0.win 8).flush t = true) :
    (dats m 0 c).flushed 8 t = ((cfg0.win 8).blk t).view.read (Elt Ideal) (OUT m c) := by
  have h25 : 25 ≤ t.val := by
    have h := flush0_8 t
    rw [hf] at h
    exact of_decide_eq_true h.symm
  rw [blk8_read c t h25]
  show ((dats m 0 c).after 8 t : Vec Ideal S400x32 .f32) = _
  rw [after0_8, outSlab_eq]

/-- The result array ends the run at `OUT`. -/
theorem final (c : Dev nD) : (dats m 0 c).arrAt 8 cfg0.N = OUT m c :=
  (dats m 0 c).arrAt_eq_of_cover 8 (OUT m c) (fun t hf => flushed_eq m c t hf) (cover8 c)

/-- Every weakly fair execution of the idealized kernel's @main terminates with the result array at `OUT` and the argument
    arrays unchanged. -/
theorem run_value : θ_run defs (onTc (τ := τ) (main (F := Ideal))) ⟨m, fun _ => 0, ρ⟩ (fun r => ∀ c : Dev nD,
      r.2.mem ((c.tc : Thread nD τ).loc main_v0) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main m ρ)

end Cert.KernelIdeal.HandValue

end
-- ==== Proof.RefValue.lean ====
/-
  The reference's result is the specification: its run's composed term is, by unfolding, the row-wise log-softmax of the
  reference's logits over the first layer.
-/
import proofs.«140956_g31370441130263_cont_sun_m_318_17_alg».proof.Proof.RefRun
import proofs.«140956_g31370441130263_cont_sun_m_318_17_alg».proof.Proof.Spec

set_option maxRecDepth 65536

noncomputable section

namespace Cert.RefValue

open Cert.ReferenceIdeal Cert.ReferenceIdeal.Gen Idealize.ShloMosaic Idealize.ShloMosaic.TcCoe Idealize.SL.Sem

variable {F : FTy → Type} [FloatOps F]

/-- The reference's result term is `logSoftmax (logitsRef … (hidden …))` of the argument arrays. -/
theorem res_eq (m : (ℓ : Loc nD τ sig) → Buf (Elt F) ℓ) (c : Dev nD) :
    Cert.ReferenceIdeal.ValueP.res_main_v15 m c
      = Cert.Spec.logSoftmax (Cert.Spec.logitsRef (m ((c.tc : Thread nD τ).loc main_arg1)) (m ((c.tc : Thread nD τ).loc main_arg5)) (m ((c.tc : Thread nD τ).loc main_arg6)) (m ((c.tc : Thread nD τ).loc main_arg7))
          (Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) :=
  rfl

end Cert.RefValue

end
-- ==== Proof.Assoc.lean ====
/-
  The one law that joins the kernel's logits to the reference's, and the finiteness it needs.

  With every entry a real number, `adj · (h · W)` and `(adj · h) · W` are the same double sum taken in the two orders, so
  `(h · W2_0 + b2) + adj · (h · W2_1) = (h · W2_0 + (adj · h) · W2_1) + b2`; the outer sums only commute. The hidden layer of
  real arguments is real: sums and products of reals, and a maximum with zero.
-/
import proofs.«140956_g31370441130263_cont_sun_m_318_17_alg».proof.Proof.Spec
import proofs.«140956_g31370441130263_cont_sun_m_318_17_alg».proof.Proof.LibPlainDot

noncomputable section

open scoped BigOperators

namespace Cert.Assoc

open Cert.ReferenceIdeal Cert.ReferenceIdeal.Facts₀ Cert.ReferenceIdeal.Facts Idealize.ShloMosaic Idealize.ShloMosaic.ValueIdx Cert.Spec

/-! ## Reals inside the extended reals -/

/-- A finite sum of coercions of reals is the coercion of the sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The two orders of a triple product's double sum agree when every factor is a real number. -/
theorem assoc_of_real {I J : Type*} [Fintype I] [Fintype J] (a : I → EReal) (h : I → J → EReal) (w : J → EReal)
    (ha : ∀ k, ∃ r : ℝ, a k = r) (hh : ∀ k m, ∃ r : ℝ, h k m = r) (hw : ∀ m, ∃ r : ℝ, w m = r) :
    (∑ k, a k * ∑ m, h k m * w m) = ∑ m, (∑ k, a k * h k m) * w m := by
  choose af haf using ha
  choose hf hhf using hh
  choose wf hwf using hw
  obtain rfl : a = fun k => (af k : EReal) := funext haf
  obtain rfl : h = fun k m => (hf k m : EReal) := funext fun k => funext fun m => hhf k m
  obtain rfl : w = fun m => (wf m : EReal) := funext hwf
  simp only [← EReal.coe_mul, coe_sum]
  congr 1
  simp only [Finset.mul_sum, Finset.sum_mul]
  rw [Finset.sum_comm]
  refine Finset.sum_congr rfl fun m _ => Finset.sum_congr rfl fun k _ => ?_
  rw [mul_assoc]

/-! ## Arrays of reals -/

/-- The sum of two real arrays is real. -/
theorem isReal_addf {S : Shape} (a b : FVec Ideal S .f32) (ha : IsReal a) (hb : IsReal b) : IsReal (addf a b) := by
  intro i
  obtain ⟨r, hr⟩ := ha i
  obtain ⟨t, ht⟩ := hb i
  exact ⟨r + t, by rw [addf_apply, hr, ht, EReal.coe_add]⟩

/-- The maximum of two real arrays is real. -/
theorem isReal_maximumf {S : Shape} (a b : FVec Ideal S .f32) (ha : IsReal a) (hb : IsReal b) : IsReal (maximumf a b) := by
  intro i
  rw [maximumf_apply]
  rcases le_total (a i) (b i) with h | h
  · rw [max_eq_right h]; exact hb i
  · rw [max_eq_left h]; exact ha i

/-- A broadcast of a real array is real: every entry of it is an entry of the operand. -/
theorem isReal_broadcastInDim {s t : Shape} (dims : Fin s.rank → Fin t.rank) (h : s.BroadcastsInDim t dims) (x : s.Idx → EReal)
    (hx : IsReal x) : IsReal (broadcastInDim t dims h x) := by
  intro j
  unfold broadcastInDim
  exact hx _

/-- The zero constant is real. -/
theorem isReal_zero {S : Shape} : IsReal (constant (F := Ideal) S .f32 0x00000000#32) := by
  intro i
  exact ⟨0, by rw [constant_apply, Ideal.ofBits_zero_f32, EReal.coe_zero]⟩

/-- A plain product of real matrices is real. -/
theorem isReal_dot {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (hl : IsReal l) (hr : IsReal r) :
    IsReal (Host.dotGeneral d none l r) := by
  intro j
  choose lf hlf using hl
  choose rf hrf using hr
  refine ⟨∑ k : Fin K, lf (ix2 (j 0) k) * rf (ix2 k (j 1)), ?_⟩
  refine (Cert.PlainDot.dotGeneral_apply d hd none .single l r j).trans ?_
  rw [← coe_sum]
  refine Finset.sum_congr rfl fun k _ => ?_
  rw [hlf, hrf, EReal.coe_mul]

/-! ## The two statements -/

/-- The hidden layer of real arrays is real. -/
theorem hidden_real (x : FVec Ideal S10000x128 .f32) (adj : FVec Ideal S10000x10000 .f32) (W10 W11 : FVec Ideal S128x128 .f32) (b1 : FVec Ideal S128 .f32)
    (hx : IsReal x) (hadj : IsReal adj) (hW10 : IsReal W10) (hW11 : IsReal W11) (hb1 : IsReal b1) :
    IsReal (hidden (F := Ideal) x adj W10 W11 b1) := by
  unfold Cert.Spec.hidden
  refine isReal_maximumf _ _ (isReal_addf _ _ (isReal_addf _ _ ?_ ?_) ?_) ?_
  · exact isReal_dot (M := 10000) (K := 128) (N := 128) _ rfl x W10 hx hW10
  · refine isReal_dot (M := 10000) (K := 128) (N := 128) _ rfl _ W11 ?_ hW11
    exact isReal_dot (M := 10000) (K := 10000) (N := 128) _ rfl adj x hadj hx
  · exact isReal_broadcastInDim _ _ _ (isReal_broadcastInDim _ _ _ hb1)
  · exact isReal_broadcastInDim _ _ _ isReal_zero

/-- For real `adj`, `h` and `W2_1` the kernel's logits are the reference's. -/
theorem logits_eq (adj : FVec Ideal S10000x10000 .f32) (W20 W21 : FVec Ideal S128x32 .f32) (b2 : FVec Ideal S32 .f32) (h : FVec Ideal S10000x128 .f32)
    (hadj : IsReal adj) (hW21 : IsReal W21) (hh : IsReal h) :
    logitsKer (F := Ideal) adj W20 W21 b2 h = logitsRef (F := Ideal) adj W20 W21 b2 h := by
  funext j
  unfold logitsKer logitsRef projHW projG
  rw [addf_apply, addf_apply, addf_apply, addf_apply, add_right_comm]
  congr 1
  congr 1
  refine (Cert.PlainDot.dotGeneral_apply (M := 10000) (K := 10000) (N := 32) dotAdj32 rfl none .single adj _ j).trans ?_
  refine Eq.trans ?_ (Cert.PlainDot.dotGeneral_apply (M := 10000) (K := 128) (N := 32)
    dot_S10000x128_S128x32_S10000x32_1_0_0_1_n_n rfl none .single _ W21 j).symm
  have e1 : ∀ k : Fin 10000, Host.dotGeneral dot_S10000x128_S128x32_S10000x32_1_0_0_1_n_n none h W21 (ix2 k (j 1))
      = ∑ m : Fin 128, h (ix2 k m) * W21 (ix2 m (j 1)) := fun k =>
    Cert.PlainDot.dotGeneral_apply (M := 10000) (K := 128) (N := 32) _ rfl none .single h W21 (ix2 k (j 1))
  have e2 : ∀ m : Fin 128, Host.dotGeneral dot_S10000x10000_S10000x128_S10000x128_1_0_0_1_n_n none adj h (ix2 (j 0) m)
      = ∑ k : Fin 10000, adj (ix2 (j 0) k) * h (ix2 k m) := fun m =>
    Cert.PlainDot.dotGeneral_apply (M := 10000) (K := 10000) (N := 128) _ rfl none .single adj h (ix2 (j 0) m)
  simp only [e1, e2]
  exact assoc_of_real (fun k => adj (ix2 (j 0) k)) (fun k m => h (ix2 k m)) (fun m => W21 (ix2 m (j 1)))
    (fun k => hadj _) (fun k m => hh _) (fun m => hW21 _)

end Cert.Assoc

end
-- ==== Proof.Finite.lean ====
/-
  From the precondition to real numbers: `finite_inputs` says `|v| < +∞` at every entry of every argument array, and an
  extended real whose absolute value is below `+∞` is a real number.
-/
import proofs.«140956_g31370441130263_cont_sun_m_318_17_alg».proof.Pre_finite_inputs
import proofs.«140956_g31370441130263_cont_sun_m_318_17_alg».proof.Proof.Gen.Pre_finite_inputs
import proofs.«140956_g31370441130263_cont_sun_m_318_17_alg».proof.Proof.Spec
import Idealize.ShloMosaic.Lib.ReduceAll

noncomputable section

namespace Cert.Finite

open Cert.Pre_finite_inputs Cert.Pre_finite_inputs.Facts Idealize.ShloMosaic Cert.Spec

/-- The rank-0 shape has one index. -/
local instance : Subsingleton S_.Idx := ⟨fun a b => funext fun d => d.elim0⟩

/-- An extended real whose absolute value `max x (-x)` is below `+∞` is a real number: at `⊥` and at `⊤` that
maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One array: if the conjunction over all entries of `|v| < +∞` is 1, every entry of `v` is a real number. -/
theorem isReal_of_all {S : Shape} {axes : List (Fin S.rank)}
    (hb : S_.BroadcastsInDim S (![] : Fin 0 → Fin S.rank)) (hr : S.ReducesTo axes S_) (hu : 0 < S_.numel)
    (v : FVec Ideal S .f32) (init : IVec S_ 1) (j : S_.Idx)
    (h : Host.reduce IntOp.andi (cmpf .olt (Host.absf v) (broadcastInDim S ![] hb (constant S_ .f32 0x7F800000#32)))
      init hr hu j = 1#1) : IsReal v := by
  intro i
  have e := Host.reduce_andi_all _ _ hr hu j h i
  have e' : Ideal.cmp .olt (max (v i) (-(v i))) (Ideal.ofBits .f32 0x7F800000#32) = 1#1 := e
  have ht : Ideal.ofBits .f32 0x7F800000#32 = ⊤ := by simp [Ideal.ofBits, Ideal.ieee]
  rw [ht] at e'
  refine real_of_abs_lt_top (v i) ?_
  by_contra hn
  simp [Ideal.cmp, hn] at e'

/-- If the printed predicate is all ones, every entry of every argument array is a real number. -/
theorem real_of_pre (a0 : FVec Ideal S10000x128 .f32) (a1 : FVec Ideal S10000x10000 .f32) (a2 a3 : FVec Ideal S128x128 .f32) (a4 : FVec Ideal S128 .f32)
    (a5 a6 : FVec Ideal S128x32 .f32) (a7 : FVec Ideal S32 .f32)
    (h : Cert.Pre_finite_inputs.fn (F := Ideal) a0 a1 a2 a3 a4 a5 a6 a7 = fun _ => 1#1) :
    IsReal a0 ∧ IsReal a1 ∧ IsReal a2 ∧ IsReal a3 ∧ IsReal a4 ∧ IsReal a5 ∧ IsReal a6 ∧ IsReal a7 := by
  -- the predicate's one value, as the printed chain of conjunctions
  have h0 := congrFun h (fun d => d.elim0)
  dsimp only [fn, fn_part1, fn_part2] at h0
  -- a conjunction of bits is 1 only if both are: seven times, last conjunct first
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all _ _ _ a0 _ _ h0, isReal_of_all _ _ _ a1 _ _ h1, isReal_of_all _ _ _ a2 _ _ h2,
    isReal_of_all _ _ _ a3 _ _ h3, isReal_of_all _ _ _ a4 _ _ h4, isReal_of_all _ _ _ a5 _ _ h5,
    isReal_of_all _ _ _ a6 _ _ h6, isReal_of_all _ _ _ a7 _ _ h7⟩

end Cert.Finite

end
-- ==== Proof.lean ====
/-
  A two-layer Chebyshev graph network in one fused kernel, against its plain reference, over the extended reals.

  The kernel walks a grid of 2 × 25 points. In the first 25 it computes, for rows `400 r …` of the graph, the hidden layer
  `h = relu (x · W1_0 + (adj · x) · W1_1 + b1)` and keeps `g = h · W2_1` and `hw = h · W2_0 + b2` in two scratch arrays; in
  the last 25 it forms the logits `hw + adj · g` for the same rows and writes their row-wise log-softmax. The reference
  forms the logits as `(h · W2_0 + (adj · h) · W2_1) + b2`. The two agree because `adj · (h · W2_1) = (adj · h) · W2_1` for
  arrays of real numbers, which the precondition (every input finite) provides, the outer sums only commuting; the
  log-softmax is then the same function of the same logits, the reference's second maximum against −∞ changing nothing.

  The three frames: the kernel's two programs (word level and idealized) run to the end with the arguments unchanged because
  every point's body does, under an invariant saying which rows of the scratch arrays are filled; the reference's by its run.
  The idealization rewrote nothing, so there is nothing to preserve.
-/
import proofs.«140956_g31370441130263_cont_sun_m_318_17_alg».proof.Defs
import proofs.«140956_g31370441130263_cont_sun_m_318_17_alg».proof.Proof.Gen.Kernel
import proofs.«140956_g31370441130263_cont_sun_m_318_17_alg».proof.Proof.Gen.KernelIdeal
import proofs.«140956_g31370441130263_cont_sun_m_318_17_alg».proof.Proof.Gen.ReferenceIdeal
import proofs.«140956_g31370441130263_cont_sun_m_318_17_alg».proof.Proof.Gen.Pre_finite_inputs
import proofs.«140956_g31370441130263_cont_sun_m_318_17_alg».proof.Proof.KFrame
import proofs.«140956_g31370441130263_cont_sun_m_318_17_alg».proof.Proof.KernelValue
import proofs.«140956_g31370441130263_cont_sun_m_318_17_alg».proof.Proof.RefValue
import proofs.«140956_g31370441130263_cont_sun_m_318_17_alg».proof.Proof.Assoc
import proofs.«140956_g31370441130263_cont_sun_m_318_17_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_p : Cert.frame_Kernel := fun m ρ _ => Cert.Kernel.Hand.frame m ρ

/-- The idealized kernel runs and keeps its arguments. -/
theorem frame_pi : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on finite arguments the two idealized programs end with the same result: the log-softmax of
    logits that differ only in the order of a double sum of real numbers. -/
theorem algebraic : Cert.algebraic_KernelIdeal_ReferenceIdeal := by
  intro m ρ m' ρ' hpre hagree
  refine ⟨fun c => Cert.KernelIdeal.HandValue.OUT m c, Cert.KernelIdeal.HandValue.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.RefValue.res_eq, (hagree c).1, (hagree c).2.1, (hagree c).2.2.1, (hagree c).2.2.2.1, (hagree c).2.2.2.2.1, (hagree c).2.2.2.2.2.1, (hagree c).2.2.2.2.2.2.1, (hagree c).2.2.2.2.2.2.2]
  obtain ⟨h0, h1, h2, h3, h4, h5, h6, h7⟩ := Cert.Finite.real_of_pre _ _ _ _ _ _ _ _ (hpre c)
  exact congrArg _ (Cert.Assoc.logits_eq _ _ _ _ _ h1 h6 (Cert.Assoc.hidden_real _ _ _ _ _ h0 h1 h2 h3 h4)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
